-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512x3 : Shape := ⟨4, ![4, 512, 512, 3]⟩
abbrev S4x512x512x75 : Shape := ⟨4, ![4, 512, 512, 75]⟩
abbrev S_ : Shape := ⟨0, ![]⟩

class Facts : Prop where
  bcast_S_S4x512x512x3 : S_.BroadcastsInDim S4x512x512x3 (![] : Fin 0 → Fin S4x512x512x3.rank)
  reducesTo_S4x512x512x3_S_d0_1_2_3 : S4x512x512x3.ReducesTo [0, 1, 2, 3] S_
  h_S_ : 0 < S_.numel
  bcast_S_S4x512x512x75 : S_.BroadcastsInDim S4x512x512x75 (![] : Fin 0 → Fin S4x512x512x75.rank)
  reducesTo_S4x512x512x75_S_d0_1_2_3 : S4x512x512x75.ReducesTo [0, 1, 2, 3] S_

variable [Facts]

def fn {F : FTy → Type} [FloatOps F] (main_arg0 : FVec F S4x512x512x3 .f32) (main_arg1 : FVec F S4x512x512x75 .f32) : IVec S_ 1 :=
  let main_v0 : FVec F S4x512x512x3 .f32 := Host.absf main_arg0
  let main_cst : FVec F S_ .f32 := constant S_ .f32 0x7F800000#32
  let main_v1 : FVec F S4x512x512x3 .f32 := broadcastInDim S4x512x512x3 ![] bcast_S_S4x512x512x3 main_cst
  let main_v2 : IVec S4x512x512x3 1 := cmpf .olt main_v0 main_v1
  let main_c : IVec S_ 1 := constantI S_ 1 1#1
  let main_v3 : IVec S_ 1 := (fun x v => Host.reduce IntOp.andi x v reducesTo_S4x512x512x3_S_d0_1_2_3 h_S_) main_v2 main_c
  let main_v4 : FVec F S4x512x512x75 .f32 := Host.absf main_arg1
  let main_cst_0 : FVec F S_ .f32 := constant S_ .f32 0x7F800000#32
  let main_v5 : FVec F S4x512x512x75 .f32 := broadcastInDim S4x512x512x75 ![] bcast_S_S4x512x512x75 main_cst_0
  let main_v6 : IVec S4x512x512x75 1 := cmpf .olt main_v4 main_v5
  let main_c_1 : IVec S_ 1 := constantI S_ 1 1#1
  let main_v7 : IVec S_ 1 := (fun x v => Host.reduce IntOp.andi x v reducesTo_S4x512x512x75_S_d0_1_2_3 h_S_) main_v6 main_c_1
  let main_v8 : IVec S_ 1 := andi main_v3 main_v7
  main_v8
-- ==== Kernel.lean ====
abbrev S4x512x512x3 : Shape := ⟨4, ![4, 512, 512, 3]⟩
abbrev S4x512x512x75 : Shape := ⟨4, ![4, 512, 512, 75]⟩
abbrev S4x3x512x512 : Shape := ⟨4, ![4, 3, 512, 512]⟩
abbrev S_ : Shape := ⟨0, ![]⟩
abbrev S4x3x516x516 : Shape := ⟨4, ![4, 3, 516, 516]⟩
abbrev S4x75x512x512 : Shape := ⟨4, ![4, 75, 512, 512]⟩
abbrev S4x512x512 : Shape := ⟨3, ![4, 512, 512]⟩
abbrev S1x3x516x516 : Shape := ⟨4, ![1, 3, 516, 516]⟩
abbrev S1x75x64x512 : Shape := ⟨4, ![1, 75, 64, 512]⟩
abbrev S1x64x512 : Shape := ⟨3, ![1, 64, 512]⟩
abbrev S1x3x68x516 : Shape := ⟨4, ![1, 3, 68, 516]⟩
abbrev S3x68x516 : Shape := ⟨3, ![3, 68, 516]⟩
abbrev S64x512 : Shape := ⟨2, ![64, 512]⟩
abbrev S3x64x512 : Shape := ⟨3, ![3, 64, 512]⟩
abbrev S1x1x64x512 : Shape := ⟨4, ![1, 1, 64, 512]⟩

abbrev nBuf : Space → Nat
  | .hbm => 8
  | .vmem => 6
  | .smem => 0
  | _ => 0

abbrev bufTy : (tb : Table) → Fin (tcTables nBuf tb) → BufTy
  | .hbm, ⟨0, _⟩ => ⟨S4x512x512x3, .f32⟩
  | .hbm, ⟨1, _⟩ => ⟨S4x512x512x75, .f32⟩
  | .hbm, ⟨2, _⟩ => ⟨S4x3x512x512, .f32⟩
  | .hbm, ⟨3, _⟩ => ⟨S_, .i32⟩
  | .hbm, ⟨4, _⟩ => ⟨S_, .f32⟩
  | .hbm, ⟨5, _⟩ => ⟨S4x3x516x516, .f32⟩
  | .hbm, ⟨6, _⟩ => ⟨S4x75x512x512, .f32⟩
  | .hbm, ⟨7, _⟩ => ⟨S4x512x512, .f32⟩
  | .local _ .vmem, ⟨0, _⟩ => ⟨S1x3x516x516, .f32⟩
  | .local _ .vmem, ⟨1, _⟩ => ⟨S1x3x516x516, .f32⟩
  | .local _ .vmem, ⟨2, _⟩ => ⟨S1x75x64x512, .f32⟩
  | .local _ .vmem, ⟨3, _⟩ => ⟨S1x75x64x512, .f32⟩
  | .local _ .vmem, ⟨4, _⟩ => ⟨S1x64x512, .f32⟩
  | .local _ .vmem, ⟨5, _⟩ => ⟨S1x64x512, .f32⟩
  | _, _ => ⟨S4x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x516x516 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x75x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x512x512x3_S4x3x512x512_0_3_1_2 : S4x512x512x3.Transposes [0, 3, 1, 2] S4x3x512x512
  pads_S4x3x512x512_S4x3x516x516_000_000_220_220 : S4x3x512x512.Pads (![0, 0, 2, 2] : Fin 4 → Nat) ![0, 0, 2, 2] ![0, 0, 0, 0] S4x3x516x516
  h_S_ : 0 < S_.numel
  transposes_S4x512x512x75_S4x75x512x512_0_3_1_2 : S4x512x512x75.Transposes [0, 3, 1, 2] S4x75x512x512
  h_S1x3x68x516 : 0 < S1x3x68x516.numel
  shapeCasts_S1x3x68x516_S3x68x516 : S1x3x68x516.ShapeCasts S3x68x516
  slices_S3x68x516_o0_0_0_S3x64x512 : S3x68x516.Slices ![0, 0, 0] S3x64x512
  slices_S3x64x512_o0_0_0_S1x64x512 : S3x64x512.Slices ![0, 0, 0] S1x64x512
  shapeCasts_S1x64x512_S64x512 : S1x64x512.ShapeCasts S64x512
  inb_S1x75x64x512_S1x1x64x512_0_0_0_0 : ∀ a, (![0, 0, 0, 0] : Fin 4 → Nat) a + S1x1x64x512.size a ≤ S1x75x64x512.size a
  h_S1x1x64x512 : 0 < S1x1x64x512.numel
  shapeCasts_S1x1x64x512_S64x512 : S1x1x64x512.ShapeCasts S64x512
  slices_S3x64x512_o1_0_0_S1x64x512 : S3x64x512.Slices ![1, 0, 0] S1x64x512
  inb_S1x75x64x512_S1x1x64x512_0_1_0_0 : ∀ a, (![0, 1, 0, 0] : Fin 4 → Nat) a + S1x1x64x512.size a ≤ S1x75x64x512.size a
  slices_S3x64x512_o2_0_0_S1x64x512 : S3x64x512.Slices ![2, 0, 0] S1x64x512
  inb_S1x75x64x512_S1x1x64x512_0_2_0_0 : ∀ a, (![0, 2, 0, 0] : Fin 4 → Nat) a + S1x1x64x512.size a ≤ S1x75x64x512.size a
  slices_S3x68x516_o0_0_1_S3x64x512 : S3x68x516.Slices ![0, 0, 1] S3x64x512
  inb_S1x75x64x512_S1x1x64x512_0_3_0_0 : ∀ a, (![0, 3, 0, 0] : Fin 4 → Nat) a + S1x1x64x512.size a ≤ S1x75x64x512.size a
  inb_S1x75x64x512_S1x1x64x512_0_4_0_0 : ∀ a, (![0, 4, 0, 0] : Fin 4 → Nat) a + S1x1x64x512.size a ≤ S1x75x64x512.size a
  inb_S1x75x64x512_S1x1x64x512_0_5_0_0 : ∀ a, (![0, 5, 0, 0] : Fin 4 → Nat) a + S1x1x64x512.size a ≤ S1x75x64x512.size a
  slices_S3x68x516_o0_0_2_S3x64x512 : S3x68x516.Slices ![0, 0, 2] S3x64x512
  inb_S1x75x64x512_S1x1x64x512_0_6_0_0 : ∀ a, (![0, 6, 0, 0] : Fin 4 → Nat) a + S1x1x64x512.size a ≤ S1x75x64x512.size a
  inb_S1x75x64x512_S1x1x64x512_0_7_0_0 : ∀ a, (![0, 7, 0, 0] : Fin 4 → Nat) a + S1x1x64x512.size a ≤ S1x75x64x512.size a
  inb_S1x75x64x512_S1x1x64x512_0_8_0_0 : ∀ a, (![0, 8, 0, 0] : Fin 4 → Nat) a + S1x1x64x512.size a ≤ S1x75x64x512.size a
  slices_S3x68x516_o0_0_3_S3x64x512 : S3x68x516.Slices ![0, 0, 3] S3x64x512
  inb_S1x75x64x512_S1x1x64x512_0_9_0_0 : ∀ a, (![0, 9, 0, 0] : Fin 4 → Nat) a + S1x1x64x512.size a ≤ S1x75x64x512.size a
  inb_S1x75x64x512_S1x1x64x512_0_10_0_0 : ∀ a, (![0, 10, 0, 0] : Fin 4 → Nat) a + S1x1x64x512.size a ≤ S1x75x64x512.size a
  inb_S1x75x64x512_S1x1x64x512_0_11_0_0 : ∀ a, (![0, 11, 0, 0] : Fin 4 → Nat) a + S1x1x64x512.size a ≤ S1x75x64x512.size a
  slices_S3x68x516_o0_0_4_S3x64x512 : S3x68x516.Slices ![0, 0, 4] S3x64x512
  inb_S1x75x64x512_S1x1x64x512_0_12_0_0 : ∀ a, (![0, 12, 0, 0] : Fin 4 → Nat) a + S1x1x64x512.size a ≤ S1x75x64x512.size a
  inb_S1x75x64x512_S1x1x64x512_0_13_0_0 : ∀ a, (![0, 13, 0, 0] : Fin 4 → Nat) a + S1x1x64x512.size a ≤ S1x75x64x512.size a
  inb_S1x75x64x512_S1x1x64x512_0_14_0_0 : ∀ a, (![0, 14, 0, 0] : Fin 4 → Nat) a + S1x1x64x512.size a ≤ S1x75x64x512.size a
  slices_S3x68x516_o0_1_0_S3x64x512 : S3x68x516.Slices ![0, 1, 0] S3x64x512
  inb_S1x75x64x512_S1x1x64x512_0_15_0_0 : ∀ a, (![0, 15, 0, 0] : Fin 4 → Nat) a + S1x1x64x512.size a ≤ S1x75x64x512.size a
  inb_S1x75x64x512_S1x1x64x512_0_16_0_0 : ∀ a, (![0, 16, 0, 0] : Fin 4 → Nat) a + S1x1x64x512.size a ≤ S1x75x64x512.size a
  inb_S1x75x64x512_S1x1x64x512_0_17_0_0 : ∀ a, (![0, 17, 0, 0] : Fin 4 → Nat) a + S1x1x64x512.size a ≤ S1x75x64x512.size a
  slices_S3x68x516_o0_1_1_S3x64x512 : S3x68x516.Slices ![0, 1, 1] S3x64x512
  inb_S1x75x64x512_S1x1x64x512_0_18_0_0 : ∀ a, (![0, 18, 0, 0] : Fin 4 → Nat) a + S1x1x64x512.size a ≤ S1x75x64x512.size a
  inb_S1x75x64x512_S1x1x64x512_0_19_0_0 : ∀ a, (![0, 19, 0, 0] : Fin 4 → Nat) a + S1x1x64x512.size a ≤ S1x75x64x512.size a
  inb_S1x75x64x512_S1x1x64x512_0_20_0_0 : ∀ a, (![0, 20, 0, 0] : Fin 4 → Nat) a + S1x1x64x512.size a ≤ S1x75x64x512.size a
  slices_S3x68x516_o0_1_2_S3x64x512 : S3x68x516.Slices ![0, 1, 2] S3x64x512
  inb_S1x75x64x512_S1x1x64x512_0_21_0_0 : ∀ a, (![0, 21, 0, 0] : Fin 4 → Nat) a + S1x1x64x512.size a ≤ S1x75x64x512.size a
  inb_S1x75x64x512_S1x1x64x512_0_22_0_0 : ∀ a, (![0, 22, 0, 0] : Fin 4 → Nat) a + S1x1x64x512.size a ≤ S1x75x64x512.size a
  inb_S1x75x64x512_S1x1x64x512_0_23_0_0 : ∀ a, (![0, 23, 0, 0] : Fin 4 → Nat) a + S1x1x64x512.size a ≤ S1x75x64x512.size a
  slices_S3x68x516_o0_1_3_S3x64x512 : S3x68x516.Slices ![0, 1, 3] S3x64x512
  inb_S1x75x64x512_S1x1x64x512_0_24_0_0 : ∀ a, (![0, 24, 0, 0] : Fin 4 → Nat) a + S1x1x64x512.size a ≤ S1x75x64x512.size a
  inb_S1x75x64x512_S1x1x64x512_0_25_0_0 : ∀ a, (![0, 25, 0, 0] : Fin 4 → Nat) a + S1x1x64x512.size a ≤ S1x75x64x512.size a
  inb_S1x75x64x512_S1x1x64x512_0_26_0_0 : ∀ a, (![0, 26, 0, 0] : Fin 4 → Nat) a + S1x1x64x512.size a ≤ S1x75x64x512.size a
  slices_S3x68x516_o0_1_4_S3x64x512 : S3x68x516.Slices ![0, 1, 4] S3x64x512
  inb_S1x75x64x512_S1x1x64x512_0_27_0_0 : ∀ a, (![0, 27, 0, 0] : Fin 4 → Nat) a + S1x1x64x512.size a ≤ S1x75x64x512.size a
  inb_S1x75x64x512_S1x1x64x512_0_28_0_0 : ∀ a, (![0, 28, 0, 0] : Fin 4 → Nat) a + S1x1x64x512.size a ≤ S1x75x64x512.size a
  inb_S1x75x64x512_S1x1x64x512_0_29_0_0 : ∀ a, (![0, 29, 0, 0] : Fin 4 → Nat) a + S1x1x64x512.size a ≤ S1x75x64x512.size a
  slices_S3x68x516_o0_2_0_S3x64x512 : S3x68x516.Slices ![0, 2, 0] S3x64x512
  inb_S1x75x64x512_S1x1x64x512_0_30_0_0 : ∀ a, (![0, 30, 0, 0] : Fin 4 → Nat) a + S1x1x64x512.size a ≤ S1x75x64x512.size a
  inb_S1x75x64x512_S1x1x64x512_0_31_0_0 : ∀ a, (![0, 31, 0, 0] : Fin 4 → Nat) a + S1x1x64x512.size a ≤ S1x75x64x512.size a
  inb_S1x75x64x512_S1x1x64x512_0_32_0_0 : ∀ a, (![0, 32, 0, 0] : Fin 4 → Nat) a + S1x1x64x512.size a ≤ S1x75x64x512.size a
  slices_S3x68x516_o0_2_1_S3x64x512 : S3x68x516.Slices ![0, 2, 1] S3x64x512
  inb_S1x75x64x512_S1x1x64x512_0_33_0_0 : ∀ a, (![0, 33, 0, 0] : Fin 4 → Nat) a + S1x1x64x512.size a ≤ S1x75x64x512.size a
  inb_S1x75x64x512_S1x1x64x512_0_34_0_0 : ∀ a, (![0, 34, 0, 0] : Fin 4 → Nat) a + S1x1x64x512.size a ≤ S1x75x64x512.size a
  inb_S1x75x64x512_S1x1x64x512_0_35_0_0 : ∀ a, (![0, 35, 0, 0] : Fin 4 → Nat) a + S1x1x64x512.size a ≤ S1x75x64x512.size a
  slices_S3x68x516_o0_2_2_S3x64x512 : S3x68x516.Slices ![0, 2, 2] S3x64x512
  inb_S1x75x64x512_S1x1x64x512_0_36_0_0 : ∀ a, (![0, 36, 0, 0] : Fin 4 → Nat) a + S1x1x64x512.size a ≤ S1x75x64x512.size a
  inb_S1x75x64x512_S1x1x64x512_0_37_0_0 : ∀ a, (![0, 37, 0, 0] : Fin 4 → Nat) a + S1x1x64x512.size a ≤ S1x75x64x512.size a
  inb_S1x75x64x512_S1x1x64x512_0_38_0_0 : ∀ a, (![0, 38, 0, 0] : Fin 4 → Nat) a + S1x1x64x512.size a ≤ S1x75x64x512.size a
  slices_S3x68x516_o0_2_3_S3x64x512 : S3x68x516.Slices ![0, 2, 3] S3x64x512
  inb_S1x75x64x512_S1x1x64x512_0_39_0_0 : ∀ a, (![0, 39, 0, 0] : Fin 4 → Nat) a + S1x1x64x512.size a ≤ S1x75x64x512.size a
  inb_S1x75x64x512_S1x1x64x512_0_40_0_0 : ∀ a, (![0, 40, 0, 0] : Fin 4 → Nat) a + S1x1x64x512.size a ≤ S1x75x64x512.size a
  inb_S1x75x64x512_S1x1x64x512_0_41_0_0 : ∀ a, (![0, 41, 0, 0] : Fin 4 → Nat) a + S1x1x64x512.size a ≤ S1x75x64x512.size a
  slices_S3x68x516_o0_2_4_S3x64x512 : S3x68x516.Slices ![0, 2, 4] S3x64x512
  inb_S1x75x64x512_S1x1x64x512_0_42_0_0 : ∀ a, (![0, 42, 0, 0] : Fin 4 → Nat) a + S1x1x64x512.size a ≤ S1x75x64x512.size a
  inb_S1x75x64x512_S1x1x64x512_0_43_0_0 : ∀ a, (![0, 43, 0, 0] : Fin 4 → Nat) a + S1x1x64x512.size a ≤ S1x75x64x512.size a
  inb_S1x75x64x512_S1x1x64x512_0_44_0_0 : ∀ a, (![0, 44, 0, 0] : Fin 4 → Nat) a + S1x1x64x512.size a ≤ S1x75x64x512.size a
  slices_S3x68x516_o0_3_0_S3x64x512 : S3x68x516.Slices ![0, 3, 0] S3x64x512
  inb_S1x75x64x512_S1x1x64x512_0_45_0_0 : ∀ a, (![0, 45, 0, 0] : Fin 4 → Nat) a + S1x1x64x512.size a ≤ S1x75x64x512.size a
  inb_S1x75x64x512_S1x1x64x512_0_46_0_0 : ∀ a, (![0, 46, 0, 0] : Fin 4 → Nat) a + S1x1x64x512.size a ≤ S1x75x64x512.size a
  inb_S1x75x64x512_S1x1x64x512_0_47_0_0 : ∀ a, (![0, 47, 0, 0] : Fin 4 → Nat) a + S1x1x64x512.size a ≤ S1x75x64x512.size a
  slices_S3x68x516_o0_3_1_S3x64x512 : S3x68x516.Slices ![0, 3, 1] S3x64x512
  inb_S1x75x64x512_S1x1x64x512_0_48_0_0 : ∀ a, (![0, 48, 0, 0] : Fin 4 → Nat) a + S1x1x64x512.size a ≤ S1x75x64x512.size a
  inb_S1x75x64x512_S1x1x64x512_0_49_0_0 : ∀ a, (![0, 49, 0, 0] : Fin 4 → Nat) a + S1x1x64x512.size a ≤ S1x75x64x512.size a
  inb_S1x75x64x512_S1x1x64x512_0_50_0_0 : ∀ a, (![0, 50, 0, 0] : Fin 4 → Nat) a + S1x1x64x512.size a ≤ S1x75x64x512.size a
  slices_S3x68x516_o0_3_2_S3x64x512 : S3x68x516.Slices ![0, 3, 2] S3x64x512
  inb_S1x75x64x512_S1x1x64x512_0_51_0_0 : ∀ a, (![0, 51, 0, 0] : Fin 4 → Nat) a + S1x1x64x512.size a ≤ S1x75x64x512.size a
  inb_S1x75x64x512_S1x1x64x512_0_52_0_0 : ∀ a, (![0, 52, 0, 0] : Fin 4 → Nat) a + S1x1x64x512.size a ≤ S1x75x64x512.size a
  inb_S1x75x64x512_S1x1x64x512_0_53_0_0 : ∀ a, (![0, 53, 0, 0] : Fin 4 → Nat) a + S1x1x64x512.size a ≤ S1x75x64x512.size a
  slices_S3x68x516_o0_3_3_S3x64x512 : S3x68x516.Slices ![0, 3, 3] S3x64x512
  inb_S1x75x64x512_S1x1x64x512_0_54_0_0 : ∀ a, (![0, 54, 0, 0] : Fin 4 → Nat) a + S1x1x64x512.size a ≤ S1x75x64x512.size a
  inb_S1x75x64x512_S1x1x64x512_0_55_0_0 : ∀ a, (![0, 55, 0, 0] : Fin 4 → Nat) a + S1x1x64x512.size a ≤ S1x75x64x512.size a
  inb_S1x75x64x512_S1x1x64x512_0_56_0_0 : ∀ a, (![0, 56, 0, 0] : Fin 4 → Nat) a + S1x1x64x512.size a ≤ S1x75x64x512.size a
  slices_S3x68x516_o0_3_4_S3x64x512 : S3x68x516.Slices ![0, 3, 4] S3x64x512
  inb_S1x75x64x512_S1x1x64x512_0_57_0_0 : ∀ a, (![0, 57, 0, 0] : Fin 4 → Nat) a + S1x1x64x512.size a ≤ S1x75x64x512.size a
  inb_S1x75x64x512_S1x1x64x512_0_58_0_0 : ∀ a, (![0, 58, 0, 0] : Fin 4 → Nat) a + S1x1x64x512.size a ≤ S1x75x64x512.size a
  inb_S1x75x64x512_S1x1x64x512_0_59_0_0 : ∀ a, (![0, 59, 0, 0] : Fin 4 → Nat) a + S1x1x64x512.size a ≤ S1x75x64x512.size a
  slices_S3x68x516_o0_4_0_S3x64x512 : S3x68x516.Slices ![0, 4, 0] S3x64x512
  inb_S1x75x64x512_S1x1x64x512_0_60_0_0 : ∀ a, (![0, 60, 0, 0] : Fin 4 → Nat) a + S1x1x64x512.size a ≤ S1x75x64x512.size a
  inb_S1x75x64x512_S1x1x64x512_0_61_0_0 : ∀ a, (![0, 61, 0, 0] : Fin 4 → Nat) a + S1x1x64x512.size a ≤ S1x75x64x512.size a
  inb_S1x75x64x512_S1x1x64x512_0_62_0_0 : ∀ a, (![0, 62, 0, 0] : Fin 4 → Nat) a + S1x1x64x512.size a ≤ S1x75x64x512.size a
  slices_S3x68x516_o0_4_1_S3x64x512 : S3x68x516.Slices ![0, 4, 1] S3x64x512
  inb_S1x75x64x512_S1x1x64x512_0_63_0_0 : ∀ a, (![0, 63, 0, 0] : Fin 4 → Nat) a + S1x1x64x512.size a ≤ S1x75x64x512.size a
  inb_S1x75x64x512_S1x1x64x512_0_64_0_0 : ∀ a, (![0, 64, 0, 0] : Fin 4 → Nat) a + S1x1x64x512.size a ≤ S1x75x64x512.size a
  inb_S1x75x64x512_S1x1x64x512_0_65_0_0 : ∀ a, (![0, 65, 0, 0] : Fin 4 → Nat) a + S1x1x64x512.size a ≤ S1x75x64x512.size a
  slices_S3x68x516_o0_4_2_S3x64x512 : S3x68x516.Slices ![0, 4, 2] S3x64x512
  inb_S1x75x64x512_S1x1x64x512_0_66_0_0 : ∀ a, (![0, 66, 0, 0] : Fin 4 → Nat) a + S1x1x64x512.size a ≤ S1x75x64x512.size a
  inb_S1x75x64x512_S1x1x64x512_0_67_0_0 : ∀ a, (![0, 67, 0, 0] : Fin 4 → Nat) a + S1x1x64x512.size a ≤ S1x75x64x512.size a
  inb_S1x75x64x512_S1x1x64x512_0_68_0_0 : ∀ a, (![0, 68, 0, 0] : Fin 4 → Nat) a + S1x1x64x512.size a ≤ S1x75x64x512.size a
  slices_S3x68x516_o0_4_3_S3x64x512 : S3x68x516.Slices ![0, 4, 3] S3x64x512
  inb_S1x75x64x512_S1x1x64x512_0_69_0_0 : ∀ a, (![0, 69, 0, 0] : Fin 4 → Nat) a + S1x1x64x512.size a ≤ S1x75x64x512.size a
  inb_S1x75x64x512_S1x1x64x512_0_70_0_0 : ∀ a, (![0, 70, 0, 0] : Fin 4 → Nat) a + S1x1x64x512.size a ≤ S1x75x64x512.size a
  inb_S1x75x64x512_S1x1x64x512_0_71_0_0 : ∀ a, (![0, 71, 0, 0] : Fin 4 → Nat) a + S1x1x64x512.size a ≤ S1x75x64x512.size a
  slices_S3x68x516_o0_4_4_S3x64x512 : S3x68x516.Slices ![0, 4, 4] S3x64x512
  inb_S1x75x64x512_S1x1x64x512_0_72_0_0 : ∀ a, (![0, 72, 0, 0] : Fin 4 → Nat) a + S1x1x64x512.size a ≤ S1x75x64x512.size a
  inb_S1x75x64x512_S1x1x64x512_0_73_0_0 : ∀ a, (![0, 73, 0, 0] : Fin 4 → Nat) a + S1x1x64x512.size a ≤ S1x75x64x512.size a
  inb_S1x75x64x512_S1x1x64x512_0_74_0_0 : ∀ a, (![0, 74, 0, 0] : Fin 4 → Nat) a + S1x1x64x512.size a ≤ S1x75x64x512.size a
  inb_S1x64x512_S1x64x512_0_0_0 : ∀ a, (![0, 0, 0] : Fin 3 → Nat) a + S1x64x512.size a ≤ S1x64x512.size a
  h_S1x64x512 : 0 < S1x64x512.numel
  shapeCasts_S64x512_S1x64x512 : S64x512.ShapeCasts S1x64x512
  hrank0 : 0 < grid0.rank
  k0_mult1_dvd : ∀ i : grid0.Coords, 64 ∣ (k0_mult1 i).toNat
  k0_off1_inb : ∀ i : grid0.Coords, ∀ a, (k0_off1 i) a + S1x3x68x516.size a ≤ S1x3x516x516.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x516x516.size a ≤ S4x3x516x516.size a
  hwx0_0 : ∀ i : grid0.Coords, EltTy.bits .f32 = 32 ∨ (Rect.block (s := S4x3x516x516) S1x3x516x516.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x75x64x512.size a ≤ S4x75x512x512.size a
  hwx0_1 : ∀ i : grid0.Coords, EltTy.bits .f32 = 32 ∨ (Rect.block (s := S4x75x512x512) S1x75x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S4x512x512.size a
  hwx0_2 : ∀ i : grid0.Coords, EltTy.bits .f32 = 32 ∨ (Rect.block (s := S4x512x512) S1x64x512.size (cc0_transform_2 i) (hinb0_2 i)).WholeWords (EltTy.packing .f32)

variable [Facts₀]

abbrev win0_0 : Pipeline.Window sig grid0 :=
  Pipeline.Window.ofSpec (Memref.whole main_v1) S1x3x516x516.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x75x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x512x512x3 : Shape := ⟨4, ![4, 512, 512, 3]⟩
abbrev S4x512x512x75 : Shape := ⟨4, ![4, 512, 512, 75]⟩
abbrev S_ : Shape := ⟨0, ![]⟩
abbrev S4x516x516x3 : Shape := ⟨4, ![4, 516, 516, 3]⟩
abbrev S4x512x512x1x3 : Shape := ⟨5, ![4, 512, 512, 1, 3]⟩
abbrev S4x512x512x16x3 : Shape := ⟨5, ![4, 512, 512, 16, 3]⟩
abbrev S4x512x512x9x3 : Shape := ⟨5, ![4, 512, 512, 9, 3]⟩
abbrev S4x512x512x25x3 : Shape := ⟨5, ![4, 512, 512, 25, 3]⟩
abbrev S4x512x512 : Shape := ⟨3, ![4, 512, 512]⟩

abbrev nBuf : Space → Nat
  | .hbm => 62
  | .vmem => 0
  | .smem => 0
  | _ => 0

abbrev bufTy : (tb : Table) → Fin (tcTables nBuf tb) → BufTy
  | .hbm, ⟨0, _⟩ => ⟨S4x512x512x3, .f32⟩
  | .hbm, ⟨1, _⟩ => ⟨S4x512x512x75, .f32⟩
  | .hbm, ⟨2, _⟩ => ⟨S_, .i32⟩
  | .hbm, ⟨3, _⟩ => ⟨S_, .f32⟩
  | .hbm, ⟨4, _⟩ => ⟨S4x516x516x3, .f32⟩
  | .hbm, ⟨5, _⟩ => ⟨S4x512x512x3, .f32⟩
  | .hbm, ⟨6, _⟩ => ⟨S4x512x512x3, .f32⟩
  | .hbm, ⟨7, _⟩ => ⟨S4x512x512x3, .f32⟩
  | .hbm, ⟨8, _⟩ => ⟨S4x512x512x3, .f32⟩
  | .hbm, ⟨9, _⟩ => ⟨S4x512x512x3, .f32⟩
  | .hbm, ⟨10, _⟩ => ⟨S4x512x512x3, .f32⟩
  | .hbm, ⟨11, _⟩ => ⟨S4x512x512x3, .f32⟩
  | .hbm, ⟨12, _⟩ => ⟨S4x512x512x3, .f32⟩
  | .hbm, ⟨13, _⟩ => ⟨S4x512x512x3, .f32⟩
  | .hbm, ⟨14, _⟩ => ⟨S4x512x512x3, .f32⟩
  | .hbm, ⟨15, _⟩ => ⟨S4x512x512x3, .f32⟩
  | .hbm, ⟨16, _⟩ => ⟨S4x512x512x3, .f32⟩
  | .hbm, ⟨17, _⟩ => ⟨S4x512x512x3, .f32⟩
  | .hbm, ⟨18, _⟩ => ⟨S4x512x512x3, .f32⟩
  | .hbm, ⟨19, _⟩ => ⟨S4x512x512x3, .f32⟩
  | .hbm, ⟨20, _⟩ => ⟨S4x512x512x3, .f32⟩
  | .hbm, ⟨21, _⟩ => ⟨S4x512x512x3, .f32⟩
  | .hbm, ⟨22, _⟩ => ⟨S4x512x512x3, .f32⟩
  | .hbm, ⟨23, _⟩ => ⟨S4x512x512x3, .f32⟩
  | .hbm, ⟨24, _⟩ => ⟨S4x512x512x3, .f32⟩
  | .hbm, ⟨25, _⟩ => ⟨S4x512x512x3, .f32⟩
  | .hbm, ⟨26, _⟩ => ⟨S4x512x512x3, .f32⟩
  | .hbm, ⟨27, _⟩ => ⟨S4x512x512x3, .f32⟩
  | .hbm, ⟨28, _⟩ => ⟨S4x512x512x3, .f32⟩
  | .hbm, ⟨29, _⟩ => ⟨S4x512x512x3, .f32⟩
  | .hbm, ⟨30, _⟩ => ⟨S4x512x512x1x3, .f32⟩
  | .hbm, ⟨31, _⟩ => ⟨S4x512x512x1x3, .f32⟩
  | .hbm, ⟨32, _⟩ => ⟨S4x512x512x1x3, .f32⟩
  | .hbm, ⟨33, _⟩ => ⟨S4x512x512x1x3, .f32⟩
  | .hbm, ⟨34, _⟩ => ⟨S4x512x512x1x3, .f32⟩
  | .hbm, ⟨35, _⟩ => ⟨S4x512x512x1x3, .f32⟩
  | .hbm, ⟨36, _⟩ => ⟨S4x512x512x1x3, .f32⟩
  | .hbm, ⟨37, _⟩ => ⟨S4x512x512x1x3, .f32⟩
  | .hbm, ⟨38, _⟩ => ⟨S4x512x512x1x3, .f32⟩
  | .hbm, ⟨39, _⟩ => ⟨S4x512x512x1x3, .f32⟩
  | .hbm, ⟨40, _⟩ => ⟨S4x512x512x1x3, .f32⟩
  | .hbm, ⟨41, _⟩ => ⟨S4x512x512x1x3, .f32⟩
  | .hbm, ⟨42, _⟩ => ⟨S4x512x512x1x3, .f32⟩
  | .hbm, ⟨43, _⟩ => ⟨S4x512x512x1x3, .f32⟩
  | .hbm, ⟨44, _⟩ => ⟨S4x512x512x1x3, .f32⟩
  | .hbm, ⟨45, _⟩ => ⟨S4x512x512x1x3, .f32⟩
  | .hbm, ⟨46, _⟩ => ⟨S4x512x512x1x3, .f32⟩
  | .hbm, ⟨47, _⟩ => ⟨S4x512x512x1x3, .f32⟩
  | .hbm, ⟨48, _⟩ => ⟨S4x512x512x1x3, .f32⟩
  | .hbm, ⟨49, _⟩ => ⟨S4x512x512x1x3, .f32⟩
  | .hbm, ⟨50, _⟩ => ⟨S4x512x512x1x3, .f32⟩
  | .hbm, ⟨51, _⟩ => ⟨S4x512x512x1x3, .f32⟩
  | .hbm, ⟨52, _⟩ => ⟨S4x512x512x1x3, .f32⟩
  | .hbm, ⟨53, _⟩ => ⟨S4x512x512x1x3, .f32⟩
  | .hbm, ⟨54, _⟩ => ⟨S4x512x512x1x3, .f32⟩
  | .hbm, ⟨55, _⟩ => ⟨S4x512x512x16x3, .f32⟩
  | .hbm, ⟨56, _⟩ => ⟨S4x512x512x9x3, .f32⟩
  | .hbm, ⟨57, _⟩ => ⟨S4x512x512x25x3, .f32⟩
  | .hbm, ⟨58, _⟩ => ⟨S4x512x512x75, .f32⟩
  | .hbm, ⟨59, _⟩ => ⟨S4x512x512x75, .f32⟩
  | .hbm, ⟨60, _⟩ => ⟨S_, .f32⟩
  | .hbm, ⟨61, _⟩ => ⟨S4x512x512, .f32⟩
  | _, _ => ⟨S4x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩

abbrev nD : Nat := 1
abbrev τ : Topo := Topo.v7x

variable {F : FTy → Type} [FloatOps F]

class Facts₀ : Prop where
  pads_S4x512x512x3_S4x516x516x3_000_220_220_000 : S4x512x512x3.Pads (![0, 2, 2, 0] : Fin 4 → Nat) ![0, 2, 2, 0] ![0, 0, 0, 0] S4x516x516x3
  h_S_ : 0 < S_.numel
  slices_S4x516x516x3_S4x512x512x3_0_0_0_0 : S4x516x516x3.Slices ![0, 0, 0, 0] S4x512x512x3
  slices_S4x516x516x3_S4x512x512x3_0_0_1_0 : S4x516x516x3.Slices ![0, 0, 1, 0] S4x512x512x3
  slices_S4x516x516x3_S4x512x512x3_0_0_2_0 : S4x516x516x3.Slices ![0, 0, 2, 0] S4x512x512x3
  slices_S4x516x516x3_S4x512x512x3_0_0_3_0 : S4x516x516x3.Slices ![0, 0, 3, 0] S4x512x512x3
  slices_S4x516x516x3_S4x512x512x3_0_0_4_0 : S4x516x516x3.Slices ![0, 0, 4, 0] S4x512x512x3
  slices_S4x516x516x3_S4x512x512x3_0_1_0_0 : S4x516x516x3.Slices ![0, 1, 0, 0] S4x512x512x3
  slices_S4x516x516x3_S4x512x512x3_0_1_1_0 : S4x516x516x3.Slices ![0, 1, 1, 0] S4x512x512x3
  slices_S4x516x516x3_S4x512x512x3_0_1_2_0 : S4x516x516x3.Slices ![0, 1, 2, 0] S4x512x512x3
  slices_S4x516x516x3_S4x512x512x3_0_1_3_0 : S4x516x516x3.Slices ![0, 1, 3, 0] S4x512x512x3
  slices_S4x516x516x3_S4x512x512x3_0_1_4_0 : S4x516x516x3.Slices ![0, 1, 4, 0] S4x512x512x3
  slices_S4x516x516x3_S4x512x512x3_0_2_0_0 : S4x516x516x3.Slices ![0, 2, 0, 0] S4x512x512x3
  slices_S4x516x516x3_S4x512x512x3_0_2_1_0 : S4x516x516x3.Slices ![0, 2, 1, 0] S4x512x512x3
  slices_S4x516x516x3_S4x512x512x3_0_2_2_0 : S4x516x516x3.Slices ![0, 2, 2, 0] S4x512x512x3
  slices_S4x516x516x3_S4x512x512x3_0_2_3_0 : S4x516x516x3.Slices ![0, 2, 3, 0] S4x512x512x3
  slices_S4x516x516x3_S4x512x512x3_0_2_4_0 : S4x516x516x3.Slices ![0, 2, 4, 0] S4x512x512x3
  slices_S4x516x516x3_S4x512x512x3_0_3_0_0 : S4x516x516x3.Slices ![0, 3, 0, 0] S4x512x512x3
  slices_S4x516x516x3_S4x512x512x3_0_3_1_0 : S4x516x516x3.Slices ![0, 3, 1, 0] S4x512x512x3
  slices_S4x516x516x3_S4x512x512x3_0_3_2_0 : S4x516x516x3.Slices ![0, 3, 2, 0] S4x512x512x3
  slices_S4x516x516x3_S4x512x512x3_0_3_3_0 : S4x516x516x3.Slices ![0, 3, 3, 0] S4x512x512x3
  slices_S4x516x516x3_S4x512x512x3_0_3_4_0 : S4x516x516x3.Slices ![0, 3, 4, 0] S4x512x512x3
  slices_S4x516x516x3_S4x512x512x3_0_4_0_0 : S4x516x516x3.Slices ![0, 4, 0, 0] S4x512x512x3
  slices_S4x516x516x3_S4x512x512x3_0_4_1_0 : S4x516x516x3.Slices ![0, 4, 1, 0] S4x512x512x3
  slices_S4x516x516x3_S4x512x512x3_0_4_2_0 : S4x516x516x3.Slices ![0, 4, 2, 0] S4x512x512x3
  slices_S4x516x516x3_S4x512x512x3_0_4_3_0 : S4x516x516x3.Slices ![0, 4, 3, 0] S4x512x512x3
  slices_S4x516x516x3_S4x512x512x3_0_4_4_0 : S4x516x516x3.Slices ![0, 4, 4, 0] S4x512x512x3
  bcast_S4x512x512x3_S4x512x512x1x3_0_1_2_4 : S4x512x512x3.BroadcastsInDim S4x512x512x1x3 (![0, 1, 2, 4] : Fin 4 → Fin S4x512x512x1x3.rank)
  concatenates_S4x512x512x1x3_S4x512x512x1x3_S4x512x512x1x3_S4x512x512x1x3_S4x512x512x1x3_S4x512x512x1x3_S4x512x512x1x3_S4x512x512x1x3_S4x512x512x1x3_S4x512x512x1x3_S4x512x512x1x3_S4x512x512x1x3_S4x512x512x1x3_S4x512x512x1x3_S4x512x512x1x3_S4x512x512x1x3_S4x512x512x16x3_d3 : Shape.Concatenates [S4x512x512x1x3, S4x512x512x1x3, S4x512x512x1x3, S4x512x512x1x3, S4x512x512x1x3, S4x512x512x1x3, S4x512x512x1x3, S4x512x512x1x3, S4x512x512x1x3, S4x512x512x1x3, S4x512x512x1x3, S4x512x512x1x3, S4x512x512x1x3, S4x512x512x1x3, S4x512x512x1x3, S4x512x512x1x3] S4x512x512x16x3 3
  concatenates_S4x512x512x1x3_S4x512x512x1x3_S4x512x512x1x3_S4x512x512x1x3_S4x512x512x1x3_S4x512x512x1x3_S4x512x512x1x3_S4x512x512x1x3_S4x512x512x1x3_S4x512x512x9x3_d3 : Shape.Concatenates [S4x512x512x1x3, S4x512x512x1x3, S4x512x512x1x3, S4x512x512x1x3, S4x512x512x1x3, S4x512x512x1x3, S4x512x512x1x3, S4x512x512x1x3, S4x512x512x1x3] S4x512x512x9x3 3
  concatenates_S4x512x512x16x3_S4x512x512x9x3_S4x512x512x25x3_d3 : Shape.Concatenates [S4x512x512x16x3, S4x512x512x9x3] S4x512x512x25x3 3
  shapeCasts_S4x512x512x25x3_S4x512x512x75 : S4x512x512x25x3.ShapeCasts S4x512x512x75
  reducesTo_S4x512x512x75_S4x512x512_d3 : S4x512x512x75.ReducesTo [3] S4x512x512

variable [Facts₀]

class Facts : Prop extends Facts₀ where

variable [Facts]
-- ==== Proof.ConvSpec.lean ====
/-
  The function both programs compute, stated once over the argument arrays.

  For an image `img : [4, 512, 512, 3]` (batch, row, column, channel) and per-pixel filters
  `filt : [4, 512, 512, 75]`, the result at pixel `(b, h, w)` is

      ∑ k < 75,  P(b, h + i, w + j, c) · filt(b, h, w, k)        k = (5 i + j) · 3 + c,

  where `P` is the image with two rows and two columns of zeros on every side of each plane (so `P` at padded
  coordinates `(y, x)` is `img` at `(y - 2, x - 2)` when that is inside the plane, and `0` otherwise): a 5 × 5 window
  centred at the pixel, three channels per tap, each of the 75 window entries weighted by the pixel's own filter entry.
  Coordinates are natural numbers and an array read off its extents is `0`, so that the 75 terms can be written at literal
  `k` without carrying bounds.
-/
import Idealize.ShloMosaic.PureOps.Ideal
import Idealize.ShloMosaic.Lib.ValueIdx
import Mathlib.Algebra.BigOperators.Fin

noncomputable section

namespace Cert.Conv

open Idealize.ShloMosaic Idealize.ShloMosaic.ValueIdx

/-- Entry `(a, b, c, d)` of a rank-four array of extended reals at natural-number coordinates; `0` off the array. -/
def at4 {n0 n1 n2 n3 : ℕ} (A : (⟨4, ![n0, n1, n2, n3]⟩ : Shape).Idx → EReal) (a b c d : ℕ) : EReal :=
  if h : a < n0 ∧ b < n1 ∧ c < n2 ∧ d < n3 then A (ix4 ⟨a, h.1⟩ ⟨b, h.2.1⟩ ⟨c, h.2.2.1⟩ ⟨d, h.2.2.2⟩) else 0

/-- Inside the array it is the entry. -/
theorem at4_of_lt {n0 n1 n2 n3 : ℕ} (A : (⟨4, ![n0, n1, n2, n3]⟩ : Shape).Idx → EReal) {a b c d : ℕ}
    (ha : a < n0) (hb : b < n1) (hc : c < n2) (hd : d < n3) :
    at4 A a b c d = A (ix4 ⟨a, ha⟩ ⟨b, hb⟩ ⟨c, hc⟩ ⟨d, hd⟩) := by
  unfold at4; rw [dif_pos ⟨ha, hb, hc, hd⟩]

/-- At coordinates that are already indices it is the entry. -/
theorem at4_ix {n0 n1 n2 n3 : ℕ} (A : (⟨4, ![n0, n1, n2, n3]⟩ : Shape).Idx → EReal)
    (a : Fin n0) (b : Fin n1) (c : Fin n2) (d : Fin n3) : at4 A a.val b.val c.val d.val = A (ix4 a b c d) :=
  at4_of_lt A a.isLt b.isLt c.isLt d.isLt

/-- Off the array it is zero. -/
theorem at4_of_not {n0 n1 n2 n3 : ℕ} (A : (⟨4, ![n0, n1, n2, n3]⟩ : Shape).Idx → EReal) {a b c d : ℕ}
    (h : ¬(a < n0 ∧ b < n1 ∧ c < n2 ∧ d < n3)) : at4 A a b c d = 0 := by
  unfold at4; rw [dif_neg h]

/-- The zero-padded image at padded coordinates: row `y` and column `x` of the 516 × 516 plane of batch `b`, channel `c`. -/
def padded (img : (⟨4, ![4, 512, 512, 3]⟩ : Shape).Idx → EReal) (b y x c : ℕ) : EReal :=
  if 2 ≤ y ∧ 2 ≤ x then at4 img b (y - 2) (x - 2) c else 0

/-- The `k`-th of the 75 products at pixel `(b, h, w)`: window tap `k / 3` (row `k / 3 / 5`, column `k / 3 % 5`), channel `k % 3`. -/
def term (img : (⟨4, ![4, 512, 512, 3]⟩ : Shape).Idx → EReal) (filt : (⟨4, ![4, 512, 512, 75]⟩ : Shape).Idx → EReal)
    (b h w k : ℕ) : EReal :=
  padded img b (h + k / 3 / 5) (w + k / 3 % 5) (k % 3) * at4 filt b h w k

/-- The per-pixel filtered image. -/
def conv (img : (⟨4, ![4, 512, 512, 3]⟩ : Shape).Idx → EReal) (filt : (⟨4, ![4, 512, 512, 75]⟩ : Shape).Idx → EReal) :
    (⟨3, ![4, 512, 512]⟩ : Shape).Idx → EReal :=
  fun j => ∑ k : Fin 75, term img filt (j 0).val (j 1).val (j 2).val k.val

/-- A sum over `Fin 75` of a function of the value is the sum over the first 75 naturals (which unrolls term by term). -/
theorem sum75 (f : ℕ → EReal) : ∑ k : Fin 75, f k.val = ∑ k ∈ Finset.range 75, f k :=
  Fin.sum_univ_eq_sum_range f 75

end Cert.Conv

end
-- ==== Proof.KernelBody.lean ====
/-
  What the kernel body leaves in its output block, as a function of the two input blocks.

  At grid point `(b, hi)` the body holds batch `b`'s whole padded channel-major image `x0 : [1, 3, 516, 516]` and the
  filter tile `x1 : [1, 75, 64, 512]` of the 64 output rows `64 hi … 64 hi + 63`. It loads the 68 image rows from `64 hi` on
  (the tile's rows and their halo), and accumulates from zero, tap by tap `(i, j)` of the 5 × 5 window and channel by channel
  `c`, the product of the image shifted by `(i, j)` with filter plane `k = (5 i + j) · 3 + c`. So entry `(r, q)` of the output
  block is

      ((0 + t 0) + t 1) + … + t 74,     t k = x0(0, k % 3, 64 hi + (k / 15 + r), k / 3 % 5 + q) · x1(0, k, r, q),

  the sum of the 75 terms in the order of `k`, which is the order the reference's sum is written in too.
-/
import proofs.«404483_j77644418777227_3_alg».proof.Proof.Gen.KernelIdeal.Frame
import proofs.«404483_j77644418777227_3_alg».proof.Proof.ConvSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Cert.Conv
open Idealize.ShloMosaic Idealize.ShloMosaic.TcCoe Idealize.ShloMosaic.Tactic Idealize.ShloMosaic.ValueIdx
open Idealize.SL Idealize.SL.RA Idealize.SL.BI
open Idealize.SL.Sem
open Idealize.ShloMosaic.Pipeline (Dat Cfg Window BodyObligation cellOf)

theorem zero3 : (![0, 0, 0] : Fin 3 → Nat) = fun _ => 0 := funext fun a => by fin_cases a <;> rfl

/-- The accumulator starts at the extended real `0`. -/
theorem zero_splat : Scalar.ofBits (F := Ideal) .f32 0x00000000#32 = (0 : EReal) := Ideal.ofBits_zero_f32

/-- ONE WINDOW TAP. Of the 68 loaded image rows `W : [1, 3, 68, 516]`, the 64 × 512 patch at `(i, j)`, and of that channel `c`: at
    `(r, q)` it is `W` at channel `c`, row `i + r`, column `j + q`. -/
theorem tap_apply (W : FVec Ideal S1x3x68x516 .f32) (i j c : ℕ)
    (h0 : S1x3x68x516.ShapeCasts S3x68x516)
    (h1 : S3x68x516.Slices ![0, i, j] S3x64x512) (h2 : S3x64x512.Slices ![c, 0, 0] S1x64x512)
    (h3 : S1x64x512.ShapeCasts S64x512) (r : Fin 64) (q : Fin 512) :
    shapeCast S64x512 (extractStridedSlice S1x64x512 ![c, 0, 0]
        (extractStridedSlice S3x64x512 ![0, i, j]
          (shapeCast (s := S1x3x68x516) (α := Ideal .f32) S3x68x516 W h0 : FVec Ideal S3x68x516 .f32) h1
          : FVec Ideal S3x64x512 .f32) h2 : FVec Ideal S1x64x512 .f32) h3 (ix2 r q)
      = at4 W 0 c (i + r.val) (j + q.val) := by
  have hc : c + 1 ≤ 3 := h2.2 (0 : Fin 3)
  have hi : i + 64 ≤ 68 := h1.2 (1 : Fin 3)
  have hj : j + 512 ≤ 516 := h1.2 (2 : Fin 3)
  have hr : r.val < 64 := r.isLt
  have hq : q.val < 512 := q.isLt
  refine (shapeCast_1ab_ab_apply _ h3 r q).trans ?_
  refine (extractStridedSlice_apply ![c, 0, 0] _ h2 (ix3 (0 : Fin 1) r q) (ix3 (⟨c, by omega⟩ : Fin 3) r q) (fun a => match a with
    | ⟨0, _⟩ => by show c = c + 0; omega
    | ⟨1, _⟩ => by show r.val = 0 + r.val; omega
    | ⟨2, _⟩ => by show q.val = 0 + q.val; omega)).trans ?_
  refine (extractStridedSlice_apply ![0, i, j] _ h1 (ix3 (⟨c, by omega⟩ : Fin 3) r q)
    (ix3 (⟨c, by omega⟩ : Fin 3) (⟨i + r.val, by omega⟩ : Fin 68) (⟨j + q.val, by omega⟩ : Fin 516)) (fun a => match a with
    | ⟨0, _⟩ => by show c = 0 + c; omega
    | ⟨1, _⟩ => by show i + r.val = i + r.val; omega
    | ⟨2, _⟩ => by show j + q.val = j + q.val; omega)).trans ?_
  refine (shapeCast_1abc_abc_apply _ h0 _ _ _).trans ?_
  exact (at4_of_lt W (a := 0) (b := c) (c := i + r.val) (d := j + q.val) (by decide) (by omega) (by omega) (by omega)).symm

/-- THE LOADED ROWS. The window is the image block's 68 rows from row `o`: inside the window, its entry at row `y` is the
    block's at row `o + y`. -/
theorem win_at (x0 : Vec Ideal S1x3x516x516 .f32) (o : ℕ)
    (inb : ∀ a, (![0, 0, o, 0] : Fin 4 → ℕ) a + (![1, 3, 68, 516] : Fin 4 → ℕ) a ≤ S1x3x516x516.size a)
    (W : FVec Ideal S1x3x68x516 .f32)
    (hW : View.ld (Val := Elt Ideal) (e' := .f32) x0 (Rect.unit (s := S1x3x516x516) ![0, 0, o, 0] ![1, 3, 68, 516] inb) = W)
    {c y x : ℕ} (hc : c < 3) (hy : y < 68) (hx : x < 516) :
    at4 W 0 c y x = at4 x0 0 c (o + y) x := by
  have ho : o + 68 ≤ 516 := inb (2 : Fin 4)
  subst hW
  rw [at4_of_lt _ (a := 0) (b := c) (c := y) (d := x) (by decide) hc hy hx,
    at4_of_lt x0 (a := 0) (b := c) (c := o + y) (d := x) (by decide) hc (by omega) hx]
  show x0 _ = x0 _
  refine congrArg x0 (funext fun a => Fin.ext ?_)
  match a with
  | ⟨0, _⟩ => show 0 + 1 * 0 = 0; omega
  | ⟨1, _⟩ => show 0 + 1 * c = c; omega
  | ⟨2, _⟩ => show o + 1 * y = o + y; omega
  | ⟨3, _⟩ => show 0 + 1 * x = x; omega

/-- ONE FILTER PLANE. Plane `k` of the filter tile, loaded as a `[1, 1, 64, 512]` block and viewed `[64, 512]`: at `(r, q)` it is
    the tile at `(0, k, r, q)`. -/
theorem filt_apply (x1 : Vec Ideal S1x75x64x512 .f32) (k : ℕ)
    (inb : ∀ a, (![0, k, 0, 0] : Fin 4 → ℕ) a + (![1, 1, 64, 512] : Fin 4 → ℕ) a ≤ S1x75x64x512.size a)
    (h : S1x1x64x512.ShapeCasts S64x512) (r : Fin 64) (q : Fin 512) :
    shapeCast (s := S1x1x64x512) (α := Ideal .f32) S64x512 (View.ld (Val := Elt Ideal) (e' := .f32) x1 (Rect.unit (s := S1x75x64x512) ![0, k, 0, 0] ![1, 1, 64, 512] inb)) h (ix2 r q)
      = at4 x1 0 k r.val q.val := by
  have hk : k + 1 ≤ 75 := inb (1 : Fin 4)
  have hr : r.val < 64 := r.isLt
  have hq : q.val < 512 := q.isLt
  refine (shapeCast_apply _ h (ix2 r q) (ix4 (0 : Fin 1) (0 : Fin 1) r q) (by
    rw [Shape.rowMajor_val_four, Shape.rowMajor_val_two]
    show ((0 * 1 + 0) * 64 + r.val) * 512 + q.val = r.val * 512 + q.val
    omega)).trans ?_
  rw [at4_of_lt x1 (a := 0) (b := k) (c := r.val) (d := q.val) (by decide) (by omega) hr hq]
  show x1 _ = x1 _
  refine congrArg x1 (funext fun a => Fin.ext ?_)
  match a with
  | ⟨0, _⟩ => show 0 + 1 * 0 = 0; omega
  | ⟨1, _⟩ => show k + 1 * 0 = k; omega
  | ⟨2, _⟩ => show 0 + 1 * r.val = r.val; omega
  | ⟨3, _⟩ => show 0 + 1 * q.val = q.val; omega

/-- The row the body's image load starts at is `64` times the grid's row-tile coordinate. -/
theorem row_off (i : grid0.Coords) :
    BitVec.toNat (Scalar.indexCast (Scalar.muli (BitVec.ofNat 32 (i 1).val) 64#32)) = 64 * (i 1).val :=
  congrFun (k0_off1_eq i) (2 : Fin 4)

set_option maxHeartbeats 1000000 in
/-- THE OUTPUT BLOCK at `(r, q)`: the 75 products of the shifted image with the filter planes, summed in the order of `k`.
    The run's one piece is the last accumulator, stored whole; its payload unfolds to the chain of 75 multiply-adds over the
    one image load and the 75 filter loads, each read at `(r, q)` by the two lemmas above. -/
theorem out_apply (c : Dev nD) (i : grid0.Coords) (arg2 : Memref sig .tc .vmem S1x3x516x516 .f32) (harg2 : arg2.IsWhole)
    (arg3 : Memref sig .tc .vmem S1x75x64x512 .f32) (harg3 : arg3.IsWhole) (arg4 : Memref sig .tc .vmem S1x64x512 .f32) (harg4 : arg4.IsWhole)
    (x0 : Vec Ideal S1x3x516x516 .f32) (x1 : Vec Ideal S1x75x64x512 .f32) (u : Fin 1) (r : Fin 64) (q : Fin 512) :
    out0_A_2 (F := Ideal) c i arg2 harg2 arg3 harg3 arg4 harg4 x0 x1 (ix3 u r q)
      = ∑ k : Fin 75, at4 x0 0 (k.val % 3) (64 * (i 1).val + (k.val / 3 / 5 + r.val)) (k.val / 3 % 5 + q.val) * at4 x1 0 k.val r.val q.val := by
  refine Eq.trans ?_ (sum75 (fun k => at4 x0 0 (k % 3) (64 * (i 1).val + (k / 3 / 5 + r.val)) (k / 3 % 5 + q.val) * at4 x1 0 k r.val q.val)).symm
  unfold out0_A_2
  rw [View.read_writes_eq_canon _ _ _ (cover0_A_2 c i arg2 harg2 arg3 harg3 arg4 harg4 x0 x1)]
  unfold kernelRun0_A
  dsimp only
  sl_unfold_words
  rw [View.canon_unit_zero zero3]
  simp only [View.readAt_eq_ld, harg2.read_unread, harg3.read_unread]
  generalize hW : View.ld x0 _ = W
  have hwin : ∀ c y x : ℕ, c < 3 → y < 68 → x < 516 →
      at4 (n0 := 1) (n1 := 3) (n2 := 68) (n3 := 516) W 0 c y x
        = at4 x0 0 c (BitVec.toNat (Scalar.indexCast (Scalar.muli (BitVec.ofNat 32 (i 1).val) 64#32)) + y) x :=
    fun c y x hc hy hx => win_at x0 _ _ W hW hc hy hx
  rw [row_off] at hwin
  have hr : r.val < 64 := r.isLt
  have hq : q.val < 512 := q.isLt
  simp (disch := omega) only [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38, k0_pay39, k0_pay40,
    shapeCast_ab_1ab_apply, addf_apply, mulf_apply, broadcast_apply, tap_apply, filt_apply, zero_splat, hwin,
    Finset.sum_range_succ, Finset.sum_range_zero, Nat.reduceMod, Nat.reduceDiv]

end Cert.KernelIdeal.Body

end
-- ==== Proof.KernelHost.lean ====
/-
  What the region finds in the two arrays the host operations write before it.

  Before the region is entered the program moves the image's channel axis to position 1 (`[4, 512, 512, 3]` to
  `[4, 3, 512, 512]`), surrounds each `512 × 512` plane with two rows and two columns of the converted integer zero
  (`[4, 3, 516, 516]`), and moves the filters' tap axis to position 1 (`[4, 512, 512, 75]` to `[4, 75, 512, 512]`).
  Read at natural-number coordinates: the padded array at `(b, ch, y, x)` is the zero-padded image of the specification
  at `(b, y, x, ch)`, and the moved filters at `(b, k, h, w)` are the filters at `(b, h, w, k)`.
-/
import proofs.«404483_j77644418777227_3_alg».proof.Proof.Gen.KernelIdeal.Frame
import proofs.«404483_j77644418777227_3_alg».proof.Proof.ConvSpec
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.ValueIdx

/-! ## The two arrays as terms over the launch contents -/

/-- The padded array the region finds: the pad of the transposed image argument by the converted integer zero. -/
theorem V_v1_eq (m : (ℓ : Loc nD τ sig) → Buf (Elt Ideal) ℓ) (c : Dev nD) :
    (V (F := Ideal) m c main_v1 : S4x3x516x516.Idx → EReal)
      = pad S4x3x516x516 ![0, 0, 2, 2] ![0, 0, 2, 2] ![0, 0, 0, 0]
          (transpose S4x3x512x512 [0, 3, 1, 2] (m ((c : Thread nD τ).loc main_arg0))
            transposes_S4x512x512x3_S4x3x512x512_0_3_1_2)
          (sitofp (F := Ideal) .f32 (constantI S_ 32 0#32)) pads_S4x3x512x512_S4x3x516x516_000_000_220_220 h_S_ := by
  dsimp only [V]
  simp only [hostOps0, hostOps0_1, hostOps0_2, List.flatten_cons, List.flatten_nil, List.append_nil, List.cons_append,
    List.nil_append]
  after_results
  rfl

/-- The moved filters the region finds: the transpose of the filter argument. -/
theorem V_v2_eq (m : (ℓ : Loc nD τ sig) → Buf (Elt Ideal) ℓ) (c : Dev nD) :
    (V (F := Ideal) m c main_v2 : S4x75x512x512.Idx → EReal)
      = transpose S4x75x512x512 [0, 3, 1, 2] (m ((c : Thread nD τ).loc main_arg1))
          transposes_S4x512x512x75_S4x75x512x512_0_3_1_2 := by
  dsimp only [V]
  simp only [hostOps0, hostOps0_1, hostOps0_2, List.flatten_cons, List.flatten_nil, List.append_nil, List.cons_append,
    List.nil_append]
  after_results

/-! ## The terms read at a point -/

/-- The scalar the padding is filled with: the integer zero converted, which is the real zero. -/
theorem padValue_eq : (sitofp (F := Ideal) .f32 (constantI S_ 32 0#32) : S_.Idx → EReal) (Shape.Idx.first h_S_) = 0 := by
  show (((0#32 : BitVec 32).toInt : ℝ) : EReal) = 0
  have h0 : (0#32 : BitVec 32).toInt = 0 := by decide
  rw [h0, Int.cast_zero, EReal.coe_zero]

/-- The transposed image padded by two on each side of the last two axes, read at `(b, ch, y, x)`. -/
theorem pad_transpose_read (img : S4x512x512x3.Idx → EReal) (v : S_.Idx → EReal) (hv : v (Shape.Idx.first h_S_) = 0)
    {b ch y x : ℕ} (hb : b < 4) (hch : ch < 3) (hy : y < 516) (hx : x < 516) :
    Cert.Conv.at4 (pad S4x3x516x516 ![0, 0, 2, 2] ![0, 0, 2, 2] ![0, 0, 0, 0]
        (transpose S4x3x512x512 [0, 3, 1, 2] img transposes_S4x512x512x3_S4x3x512x512_0_3_1_2) v
        pads_S4x3x512x512_S4x3x516x516_000_000_220_220 h_S_ : S4x3x516x516.Idx → EReal) b ch y x
      = Cert.Conv.padded img b y x ch := by
  rw [Cert.Conv.at4_of_lt _ hb hch hy hx]
  unfold Cert.Conv.padded
  by_cases hin : 2 ≤ y ∧ y < 514 ∧ 2 ≤ x ∧ x < 514
  · obtain ⟨hy2, hy5, hx2, hx5⟩ := hin
    have hy' : y - 2 < 512 := by omega
    have hx' : x - 2 < 512 := by omega
    rw [if_pos ⟨hy2, hx2⟩, Cert.Conv.at4_of_lt img hb hy' hx' hch]
    rw [pad_apply_of_inside _ _ _ _ _ _ _ _ (ix4 (⟨b, hb⟩ : Fin 4) (⟨ch, hch⟩ : Fin 3) (⟨y - 2, hy'⟩ : Fin 512) (⟨x - 2, hx'⟩ : Fin 512)) (by
      intro a
      match a with
      | ⟨0, _⟩ => show b = 0 + b * (0 + 1); omega
      | ⟨1, _⟩ => show ch = 0 + ch * (0 + 1); omega
      | ⟨2, _⟩ => show y = 2 + (y - 2) * (0 + 1); omega
      | ⟨3, _⟩ => show x = 2 + (x - 2) * (0 + 1); omega)]
    exact transpose_apply _ _ _ _ _ (by
      intro a
      match a with
      | ⟨0, _⟩ => rfl
      | ⟨1, _⟩ => rfl
      | ⟨2, _⟩ => rfl
      | ⟨3, _⟩ => rfl)
  · by_cases h2 : 2 ≤ y ∧ 2 ≤ x
    · rw [if_pos h2, Cert.Conv.at4_of_not img (by omega)]
      by_cases hy5 : y < 514
      · rw [pad_apply_of_not_inside _ _ _ _ _ _ _ _ (3 : Fin 4) (by
          intro h
          have h1 : 2 ≤ x := h.1
          have h3 : (x - 2) / (0 + 1) < 512 := h.2.2
          rw [Nat.div_one] at h3
          omega)]
        exact hv
      · rw [pad_apply_of_not_inside _ _ _ _ _ _ _ _ (2 : Fin 4) (by
          intro h
          have h3 : (y - 2) / (0 + 1) < 512 := h.2.2
          rw [Nat.div_one] at h3
          omega)]
        exact hv
    · rw [if_neg h2]
      by_cases hy2 : 2 ≤ y
      · rw [pad_apply_of_not_inside _ _ _ _ _ _ _ _ (3 : Fin 4) (by
          intro h
          have h1 : 2 ≤ x := h.1
          exact h2 ⟨hy2, h1⟩)]
        exact hv
      · rw [pad_apply_of_not_inside _ _ _ _ _ _ _ _ (2 : Fin 4) (by
          intro h
          have h1 : 2 ≤ y := h.1
          exact hy2 h1)]
        exact hv

/-- The filters with the tap axis moved to position 1, read at `(b, k, h, w)`. -/
theorem transpose_filt_read (filt : S4x512x512x75.Idx → EReal)
    {b k h w : ℕ} (hb : b < 4) (hk : k < 75) (hh : h < 512) (hw : w < 512) :
    Cert.Conv.at4 (transpose S4x75x512x512 [0, 3, 1, 2] filt transposes_S4x512x512x75_S4x75x512x512_0_3_1_2 :
        S4x75x512x512.Idx → EReal) b k h w
      = Cert.Conv.at4 filt b h w k := by
  rw [Cert.Conv.at4_of_lt _ hb hk hh hw, Cert.Conv.at4_of_lt filt hb hh hw hk]
  exact transpose_apply _ _ _ _ _ (by
    intro a
    match a with
    | ⟨0, _⟩ => rfl
    | ⟨1, _⟩ => rfl
    | ⟨2, _⟩ => rfl
    | ⟨3, _⟩ => rfl)

/-! ## What the region finds -/

/-- In `main_v1` the region finds the channel-major image with two zero rows and columns on each side of each plane. -/
theorem V_img (m : (ℓ : Loc nD τ sig) → Buf (Elt Ideal) ℓ) (c : Dev nD) {b ch y x : ℕ}
    (hb : b < 4) (hch : ch < 3) (hy : y < 516) (hx : x < 516) :
    Cert.Conv.at4 (V (F := Ideal) m c main_v1 : S4x3x516x516.Idx → EReal) b ch y x
      = Cert.Conv.padded (m ((c : Thread nD τ).loc main_arg0)) b y x ch := by
  rw [V_v1_eq m c]
  exact pad_transpose_read _ _ padValue_eq hb hch hy hx

/-- In `main_v2` the region finds the filters with the tap axis at position 1. -/
theorem V_filt (m : (ℓ : Loc nD τ sig) → Buf (Elt Ideal) ℓ) (c : Dev nD) {b k h w : ℕ}
    (hb : b < 4) (hk : k < 75) (hh : h < 512) (hw : w < 512) :
    Cert.Conv.at4 (V (F := Ideal) m c main_v2 : S4x75x512x512.Idx → EReal) b k h w
      = Cert.Conv.at4 (m ((c : Thread nD τ).loc main_arg1)) b h w k := by
  rw [V_v2_eq m c]
  exact transpose_filt_read _ hb hk hh hw

end Cert.KernelIdeal.HostSide

end
-- ==== Proof.KernelValue.lean ====
/-
  From the kernel's blocks to its whole result array.

  Grid point `t = (b, hi)` of the 4 × 8 grid stages batch `b`'s padded channel-major image (block `(b, 0, 0, 0)` of the
  `[4, 3, 516, 516]` array the host prefix built), the filter tile of rows `64 hi … 64 hi + 63` (block `(b, 0, hi, 0)` of the
  tap-major `[4, 75, 512, 512]` filters), and writes back block `(b, hi, 0)` of the `[4, 512, 512]` result. Entry `(r, q)` of what
  it writes is the 75-term sum of the body; read through the blocks, the image factor of term `k` is the zero-padded image at
  padded row `(64 hi + r) + k / 15`, padded column `q + k / 3 % 5`, channel `k % 3`, and the filter factor is the filter entry
  `k` of pixel `(b, 64 hi + r, q)`: term `k` of the specification at that pixel. The 32 blocks tile the result, so the array ends
  holding the specification's function of the two arguments.
-/
import proofs.«404483_j77644418777227_3_alg».proof.Proof.Gen.KernelIdeal.Value
import proofs.«404483_j77644418777227_3_alg».proof.Proof.KernelBody
import proofs.«404483_j77644418777227_3_alg».proof.Proof.KernelHost
import proofs.«404483_j77644418777227_3_alg».proof.Proof.ConvSpec

set_option maxRecDepth 16384

noncomputable section

namespace Cert.KernelIdeal.ConvValue

open Cert.KernelIdeal Cert.KernelIdeal.Gen Cert.KernelIdeal.Value Cert.Conv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three index maps over the 32 grid points: the image block follows the result block's batch and is whole on the other
    axes; the filter tile follows its batch and row tile; the body's row-tile coordinate is the result block's. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 4) = win0_2.index t (0 : Fin 3) ∧ win0_1.index t (1 : Fin 4) = 0
    ∧ win0_1.index t (2 : Fin 4) = win0_2.index t (1 : Fin 3) ∧ win0_1.index t (3 : Fin 4) = 0
    ∧ win0_2.index t (2 : Fin 3) = 0 ∧ ((grid0.coords t) 1).val = win0_2.index t (1 : Fin 3)
    ∧ win0_2.index t (0 : Fin 3) ≤ 3 ∧ win0_2.index t (1 : Fin 3) ≤ 7 :=
  (by decide +kernel : ∀ t : Fin grid0.N, _)

/-- Every block of the result is some point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- THE IMAGE BLOCK at point `t` is batch `b`'s plane of the padded image. -/
theorem img_blk (c : Dev nD) (t : Fin cfg0.N) {ch y x : ℕ} (hch : ch < 3) (hy : y < 516) (hx : x < 516) :
    at4 (iblk m c 0 t : Vec Ideal S1x3x516x516 .f32) 0 ch y x
      = padded (m ((c : Thread nD τ).loc main_arg0)) (win0_2.index t (0 : Fin 3)) y x ch := by
  obtain ⟨e00, e01, e02, e03, -, -, -, -, -, -, hb, -⟩ := idx_facts t
  rw [← HostSide.V_img m c (b := win0_2.index t (0 : Fin 3)) (by omega) hch hy hx]
  rw [at4_of_lt _ (a := 0) (by decide) hch hy hx, at4_of_lt _ (a := win0_2.index t (0 : Fin 3)) (by omega) hch hy hx]
  unfold iblk
  rw [View.read_apply]
  show V m c main_v1 _ = V m c main_v1 _
  refine congrArg (V m c main_v1) (funext fun a => Fin.ext ?_)
  match a with
  | ⟨0, _⟩ => show win0_0.index t (0 : Fin 4) * 1 + 1 * 0 = win0_2.index t (0 : Fin 3); omega
  | ⟨1, _⟩ => show win0_0.index t (1 : Fin 4) * 3 + 1 * ch = ch; omega
  | ⟨2, _⟩ => show win0_0.index t (2 : Fin 4) * 516 + 1 * y = y; omega
  | ⟨3, _⟩ => show win0_0.index t (3 : Fin 4) * 516 + 1 * x = x; omega

/-- THE FILTER TILE at point `t` is rows `64 hi …` of batch `b`'s filters, tap axis first. -/
theorem filt_blk (c : Dev nD) (t : Fin cfg0.N) {k r q : ℕ} (hk : k < 75) (hr : r < 64) (hq : q < 512) :
    at4 (iblk m c 1 t : Vec Ideal S1x75x64x512 .f32) 0 k r q
      = at4 (m ((c : Thread nD τ).loc main_arg1)) (win0_2.index t (0 : Fin 3)) (64 * win0_2.index t (1 : Fin 3) + r) q k := by
  obtain ⟨-, -, -, -, e10, e11, e12, e13, -, -, hb, hh⟩ := idx_facts t
  rw [← HostSide.V_filt m c (b := win0_2.index t (0 : Fin 3)) (k := k) (h := 64 * win0_2.index t (1 : Fin 3) + r) (w := q)
    (by omega) hk (by omega) hq]
  rw [at4_of_lt _ (a := 0) (by decide) hk hr hq,
    at4_of_lt _ (a := win0_2.index t (0 : Fin 3)) (c := 64 * win0_2.index t (1 : Fin 3) + r) (by omega) hk (by omega) hq]
  unfold iblk
  rw [View.read_apply]
  show V m c main_v2 _ = V m c main_v2 _
  refine congrArg (V m c main_v2) (funext fun a => Fin.ext ?_)
  match a with
  | ⟨0, _⟩ => show win0_1.index t (0 : Fin 4) * 1 + 1 * 0 = win0_2.index t (0 : Fin 3); omega
  | ⟨1, _⟩ => show win0_1.index t (1 : Fin 4) * 75 + 1 * k = k; omega
  | ⟨2, _⟩ => show win0_1.index t (2 : Fin 4) * 64 + 1 * r = 64 * win0_2.index t (1 : Fin 3) + r; omega
  | ⟨3, _⟩ => show win0_1.index t (3 : Fin 4) * 512 + 1 * q = q; omega

/-- WHAT POINT `t` WRITES BACK is block `t` of the specification's function of the two arguments. -/
theorem flushed_eq (c : Dev nD) (t : Fin cfg0.N) :
    (dats m 0 c).flushed 2 t
      = ((cfg0.win 2).blk t).view.read (Elt Ideal) (conv (m ((c : Thread nD τ).loc main_arg0)) (m ((c : Thread nD τ).loc main_arg1))) := by
  obtain ⟨-, -, -, -, -, -, -, -, e22, hco, hb, hh⟩ := idx_facts t
  rw [flushed2_A]
  funext j
  obtain ⟨u, r, q, rfl⟩ : ∃ (u : Fin 1) (r : Fin 64) (q : Fin 512), j = ix3 u r q := ⟨j 0, j 1, j 2, eq_ix3 j⟩
  have hu : u.val = 0 := by omega
  have hr : r.val < 64 := r.isLt
  have hq : q.val < 512 := q.isLt
  rw [View.read_apply]
  show out0_A_2 (F := Ideal) c (grid0.coords t) (ms0_0 t) (hs0_0 t) (ms0_1 t) (hs0_1 t) (ms0_2 t) (hs0_2 t) (iblk m c 0 t) (iblk m c 1 t) (ix3 u r q) = _
  rw [Body.out_apply]
  unfold conv
  refine Finset.sum_congr rfl fun k _ => ?_
  have hk : k.val < 75 := k.isLt
  have eb : ((((cfg0.win 2).blk t).view.emb (ix3 u r q)) 0).val = win0_2.index t (0 : Fin 3) := by
    show win0_2.index t (0 : Fin 3) * 1 + 1 * u.val = _; omega
  have eh : ((((cfg0.win 2).blk t).view.emb (ix3 u r q)) 1).val = 64 * win0_2.index t (1 : Fin 3) + r.val := by
    show win0_2.index t (1 : Fin 3) * 64 + 1 * r.val = _; omega
  have ew : ((((cfg0.win 2).blk t).view.emb (ix3 u r q)) 2).val = q.val := by
    show win0_2.index t (2 : Fin 3) * 512 + 1 * q.val = _; omega
  rw [eb, eh, ew]
  unfold term
  rw [img_blk m c t (ch := k.val % 3) (by omega) (by omega) (by omega), filt_blk m c t hk hr hq, hco]
  have e1 : 64 * win0_2.index t (1 : Fin 3) + (k.val / 3 / 5 + r.val) = 64 * win0_2.index t (1 : Fin 3) + r.val + k.val / 3 / 5 := by omega
  have e2 : k.val / 3 % 5 + q.val = q.val + k.val / 3 % 5 := by omega
  rw [e1, e2]

/-- An index of the result is in point `t`'s block iff each coordinate is in the block's range on its axis. -/
theorem mem_blk (t : Fin cfg0.N) (i : S4x512x512.Idx) :
    i ∈ ((cfg0.win 2).blk t).view.set ↔ ∀ a : Fin 3, win0_2.index t a * S1x64x512.size a ≤ (i a).val
      ∧ (i a).val < win0_2.index t a * S1x64x512.size a + S1x64x512.size a := by
  show i ∈ ((View.whole main_v3).slice (win0_2.rect t)).set ↔ _
  rw [View.set_slice_whole, Rect.mem_set_unit]
  exact Iff.rfl

/-- The 32 blocks cover the result: pixel `(b, h, w)` is in the block of the point with batch `b` and row tile `h / 64`. -/
theorem covered (i : S4x512x512.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 512 := (i 2).isLt
  obtain ⟨t, ht⟩ := idx_onto ⟨(i 0).val, h0⟩ ⟨(i 1).val / 64, by omega⟩
  have q0 : win0_2.index t (0 : Fin 3) = (i 0).val := congrFun ht 0
  have q1 : win0_2.index t (1 : Fin 3) = (i 1).val / 64 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 512 ≤ (i 2).val ∧ (i 2).val < win0_2.index t (2 : Fin 3) * 512 + 512; omega

/-- THE RESULT ARRAY after the run is the specification's function of the two arguments. -/
theorem final (c : Dev nD) :
    (dats m 0 c).arrAt 2 cfg0.N = conv (m ((c : Thread nD τ).loc main_arg0)) (m ((c : Thread nD τ).loc main_arg1)) :=
  (dats m 0 c).arrAt_eq_of_cover 2 (conv (m ((c : Thread nD τ).loc main_arg0)) (m ((c : Thread nD τ).loc main_arg1)))
    (fun t _ => flushed_eq m c t) covered

/-- The kernel's run, read: the result at the specification's function of the arguments, the arguments unchanged. -/
theorem run : θ_run defs (onTc (τ := τ) (main (F := Ideal))) ⟨m, fun _ => 0, ρ⟩ fun r => ∀ c : Dev nD,
      r.2.mem ((c : Thread nD τ).loc main_v3) = conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ConvValue

end
-- ==== Proof.RefConv.lean ====
/-
  The reference program computes the per-pixel filtered image of the specification.

  The reference pads each plane of the image with two rows and two columns of zeros on every side, takes the 25
  shifted copies of the padded image (one per window tap, the copy for tap `n` shifted by `n / 5` rows and `n % 5`
  columns), stacks them along a new axis, flattens (tap, channel) to one axis of 75 entries, multiplies by the filters
  entry by entry and sums over that axis. Read at a pixel this is the sum of the 75 products of the specification.
-/
import proofs.«404483_j77644418777227_3_alg».proof.Proof.RefRead
import proofs.«404483_j77644418777227_3_alg».proof.Proof.ConvSpec
import Idealize.ShloMosaic.Lib.KernelVsHost
import Idealize.ShloMosaic.Lib.Pipeline.Value
import Idealize.ShloMosaic.Lib.ValueIdx
import Idealize.ShloMosaic.PureOps.Ideal
import Idealize.ShloMosaic.PureOps.Ideal.Laws
import Mathlib.Data.EReal.Basic
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx

/-! ## The padded image -/

/-- The padding value is the integer zero made a float: zero. -/
theorem pad_value : val_main_call0_v0 (F := Ideal) (Shape.Idx.first h_S_) = 0 := by
  show (((0#32 : BitVec 32).toInt : ℝ) : EReal) = 0
  rw [show (0#32 : BitVec 32).toInt = 0 from by decide, Int.cast_zero, EReal.coe_zero]

/-- The padded array read at an index is the specification's padded image at the index's coordinates: inside the
    frame of zeros it is the image two rows up and two columns left, on the frame it is zero. -/
theorem pad_read (x0 : (⟨S4x512x512x3, .f32⟩ : BufTy).Contents (Elt Ideal)) (J : S4x516x516x3.Idx) :
    val_main_v0 (F := Ideal) x0 J = Cert.Conv.padded x0 (J 0).val (J 1).val (J 2).val (J 3).val := by
  have h0 : (J 0).val < 4 := (J 0).isLt
  have h1 : (J 1).val < 516 := (J 1).isLt
  have h2 : (J 2).val < 516 := (J 2).isLt
  have h3 : (J 3).val < 3 := (J 3).isLt
  unfold val_main_v0 Cert.Conv.padded
  by_cases hy : 2 ≤ (J 1).val ∧ (J 1).val < 514
  · by_cases hx : 2 ≤ (J 2).val ∧ (J 2).val < 514
    · -- inside the frame: the image at (row - 2, column - 2)
      rw [if_pos ⟨hy.1, hx.1⟩, Cert.Conv.at4_of_lt x0 h0 (by omega : (J 1).val - 2 < 512) (by omega : (J 2).val - 2 < 512) h3]
      exact pad_apply_of_inside _ _ _ x0 _ pads_S4x512x512x3_S4x516x516x3_000_220_220_000 h_S_ J _ (fun a => match a with
        | ⟨0, _⟩ => by show (J 0).val = 0 + (J 0).val * (0 + 1); omega
        | ⟨1, _⟩ => by show (J 1).val = 2 + ((J 1).val - 2) * (0 + 1); omega
        | ⟨2, _⟩ => by show (J 2).val = 2 + ((J 2).val - 2) * (0 + 1); omega
        | ⟨3, _⟩ => by show (J 3).val = 0 + (J 3).val * (0 + 1); omega)
    · -- a column of the frame
      rw [pad_apply_of_not_inside _ _ _ x0 _ pads_S4x512x512x3_S4x516x516x3_000_220_220_000 h_S_ J ⟨2, by decide⟩
        (by show ¬(2 ≤ (J 2).val ∧ ((J 2).val - 2) % (0 + 1) = 0 ∧ ((J 2).val - 2) / (0 + 1) < 512); omega), pad_value]
      split
      · exact (Cert.Conv.at4_of_not x0 (by omega)).symm
      · rfl
  · -- a row of the frame
    rw [pad_apply_of_not_inside _ _ _ x0 _ pads_S4x512x512x3_S4x516x516x3_000_220_220_000 h_S_ J ⟨1, by decide⟩
      (by show ¬(2 ≤ (J 1).val ∧ ((J 1).val - 2) % (0 + 1) = 0 ∧ ((J 1).val - 2) / (0 + 1) < 512); omega), pad_value]
    split
    · exact (Cert.Conv.at4_of_not x0 (by omega)).symm
    · rfl

/-- A shifted copy of the padded array: at an index whose coordinates are the pixel's moved `i` rows and `j` columns
    it is the specification's padded image there. -/
theorem shift_read (x0 : (⟨S4x512x512x3, .f32⟩ : BufTy).Contents (Elt Ideal)) (b : Fin 4) (h w : Fin 512) (c : Fin 3)
    (J : S4x516x516x3.Idx) (i j : Nat)
    (e0 : (J 0).val = b.val) (e1 : (J 1).val = i + h.val) (e2 : (J 2).val = j + w.val) (e3 : (J 3).val = c.val) :
    val_main_v0 (F := Ideal) x0 J = Cert.Conv.padded x0 b.val (h.val + i) (w.val + j) c.val := by
  rw [pad_read, e0, e1, e2, e3, Nat.add_comm i h.val, Nat.add_comm j w.val]

/-! ## The stack of shifted copies -/

/-- The shape of a stack of `N` window taps. -/
abbrev Stack (N : Nat) : Shape := ⟨5, ![4, 512, 512, N, 3]⟩

/-- A stack of `N` one-tap pieces read at tap `k` is piece `k`: the `k` pieces before it each take one position of the
    tap axis, so they fill positions `0 … k - 1`. -/
theorem unit_piece {N : Nat} (xs : List ((s : Shape) × (s.Idx → EReal)))
    (hC : Shape.Concatenates (xs.map (·.1)) (Stack N) (3 : Fin 5))
    (b : Fin 4) (h w : Fin 512) (c : Fin 3) (k : Nat) (hkN : k < N) (hlen : xs.length = N)
    (x₁ : S4x512x512x1x3.Idx → EReal) (hxk : xs[k]'(hlen ▸ hkN) = ⟨S4x512x512x1x3, x₁⟩)
    (hsh : xs.map (·.1) = List.replicate N S4x512x512x1x3) :
    concatenate (Stack N) (3 : Fin 5) xs hC (ix5 b h w ⟨k, hkN⟩ c) = x₁ (ix5 b h w (0 : Fin 1) c) := by
  -- the extents of the first `k` pieces along the tap axis are `k` ones
  have hpre : (((xs.take k).map (·.1)).map fun s =>
      if e : s.rank = (Stack N).rank then s.size ((3 : Fin (Stack N).rank).cast e.symm) else 0).sum = k := by
    rw [List.map_take, hsh, List.take_replicate, List.map_replicate, List.sum_replicate_nat,
      Nat.min_eq_left (Nat.le_of_lt hkN)]
    show k * 1 = k
    exact Nat.mul_one k
  exact concatenate_apply_piece (t := Stack N) (3 : Fin 5) xs hC (ix5 b h w ⟨k, hkN⟩ c) k (hlen ▸ hkN) S4x512x512x1x3 x₁ hxk
    rfl k hpre (ix5 b h w (0 : Fin 1) c)
    (fun a => match a with
      | ⟨0, _⟩ => fun _ => rfl | ⟨1, _⟩ => fun _ => rfl | ⟨2, _⟩ => fun _ => rfl
      | ⟨3, _⟩ => fun hne => absurd rfl hne | ⟨4, _⟩ => fun _ => rfl)
    rfl

/-- The stack of all 25 taps read at one of the first sixteen is the stack of the first sixteen there. -/
theorem v53_fst (x0 : (⟨S4x512x512x3, .f32⟩ : BufTy).Contents (Elt Ideal)) (b : Fin 4) (h w : Fin 512) (c : Fin 3)
    (k : Nat) (hk : k < 16) :
    val_main_v53 (F := Ideal) x0 (ix5 b h w ⟨k, by omega⟩ c) = val_main_v51 (F := Ideal) x0 (ix5 b h w ⟨k, hk⟩ c) := by
  unfold val_main_v53
  exact concatenate_pair_apply_left (t := S4x512x512x25x3) (s₁ := S4x512x512x16x3) (s₂ := S4x512x512x9x3) (3 : Fin 5)
    (val_main_v51 (F := Ideal) x0) (val_main_v52 (F := Ideal) x0) concatenates_S4x512x512x16x3_S4x512x512x9x3_S4x512x512x25x3_d3
    (ix5 b h w ⟨k, by omega⟩ c) rfl (ix5 b h w ⟨k, hk⟩ c) (fun a => match a with
    | ⟨0, _⟩ => rfl | ⟨1, _⟩ => rfl | ⟨2, _⟩ => rfl | ⟨3, _⟩ => rfl | ⟨4, _⟩ => rfl)

/-- The stack of all 25 taps read at tap `16 + k` is the stack of the last nine at its tap `k`. -/
theorem v53_snd (x0 : (⟨S4x512x512x3, .f32⟩ : BufTy).Contents (Elt Ideal)) (b : Fin 4) (h w : Fin 512) (c : Fin 3)
    (n k : Nat) (hn : n < 25) (hk : k < 9) (e : n = 16 + k) :
    val_main_v53 (F := Ideal) x0 (ix5 b h w ⟨n, hn⟩ c) = val_main_v52 (F := Ideal) x0 (ix5 b h w ⟨k, hk⟩ c) := by
  unfold val_main_v53
  exact concatenate_pair_apply_right (t := S4x512x512x25x3) (s₁ := S4x512x512x16x3) (s₂ := S4x512x512x9x3) (3 : Fin 5)
    (val_main_v51 (F := Ideal) x0) (val_main_v52 (F := Ideal) x0) concatenates_S4x512x512x16x3_S4x512x512x9x3_S4x512x512x25x3_d3
    (ix5 b h w ⟨n, hn⟩ c) rfl rfl (ix5 b h w ⟨k, hk⟩ c) (fun a => match a with
    | ⟨0, _⟩ => fun _ => rfl | ⟨1, _⟩ => fun _ => rfl | ⟨2, _⟩ => fun _ => rfl
    | ⟨3, _⟩ => fun hne => absurd rfl hne | ⟨4, _⟩ => fun _ => rfl)
    (by show k + 16 = n; omega)

/-! Each tap in turn: tap `n` is piece `n` of the first stack (`n < 16`) or piece `n - 16` of the second, which is the
    copy of the padded array shifted `n / 5` rows and `n % 5` columns, given a tap axis of one entry. -/

/-- The image argument's type. -/
abbrev Img : Type := (⟨S4x512x512x3, .f32⟩ : BufTy).Contents (Elt Ideal)

theorem tap00 (x0 : Img) (b : Fin 4) (h w : Fin 512) (c : Fin 3) :
    val_main_v53 (F := Ideal) x0 (ix5 b h w (⟨0, by decide⟩ : Fin 25) c) = Cert.Conv.padded x0 b.val (h.val + 0) (w.val + 0) c.val := by
  refine (v53_fst x0 b h w c 0 (by decide)).trans ?_
  unfold val_main_v51
  refine (unit_piece (N := 16) _ _ b h w c 0 (by decide) rfl (val_main_v26 (F := Ideal) x0) rfl rfl).trans ?_
  rw [val_main_v26_apply, val_main_v1_apply]
  exact shift_read x0 b h w c (idx_main_v1 (idx_main_v26 (ix5 b h w 0 c))) 0 0 rfl (Nat.zero_add _).symm (Nat.zero_add _).symm rfl

theorem tap01 (x0 : Img) (b : Fin 4) (h w : Fin 512) (c : Fin 3) :
    val_main_v53 (F := Ideal) x0 (ix5 b h w (⟨1, by decide⟩ : Fin 25) c) = Cert.Conv.padded x0 b.val (h.val + 0) (w.val + 1) c.val := by
  refine (v53_fst x0 b h w c 1 (by decide)).trans ?_
  unfold val_main_v51
  refine (unit_piece (N := 16) _ _ b h w c 1 (by decide) rfl (val_main_v27 (F := Ideal) x0) rfl rfl).trans ?_
  rw [val_main_v27_apply, val_main_v2_apply]
  exact shift_read x0 b h w c (idx_main_v2 (idx_main_v27 (ix5 b h w 0 c))) 0 1 rfl (Nat.zero_add _).symm rfl rfl

theorem tap02 (x0 : Img) (b : Fin 4) (h w : Fin 512) (c : Fin 3) :
    val_main_v53 (F := Ideal) x0 (ix5 b h w (⟨2, by decide⟩ : Fin 25) c) = Cert.Conv.padded x0 b.val (h.val + 0) (w.val + 2) c.val := by
  refine (v53_fst x0 b h w c 2 (by decide)).trans ?_
  unfold val_main_v51
  refine (unit_piece (N := 16) _ _ b h w c 2 (by decide) rfl (val_main_v28 (F := Ideal) x0) rfl rfl).trans ?_
  rw [val_main_v28_apply, val_main_v3_apply]
  exact shift_read x0 b h w c (idx_main_v3 (idx_main_v28 (ix5 b h w 0 c))) 0 2 rfl (Nat.zero_add _).symm rfl rfl

theorem tap03 (x0 : Img) (b : Fin 4) (h w : Fin 512) (c : Fin 3) :
    val_main_v53 (F := Ideal) x0 (ix5 b h w (⟨3, by decide⟩ : Fin 25) c) = Cert.Conv.padded x0 b.val (h.val + 0) (w.val + 3) c.val := by
  refine (v53_fst x0 b h w c 3 (by decide)).trans ?_
  unfold val_main_v51
  refine (unit_piece (N := 16) _ _ b h w c 3 (by decide) rfl (val_main_v29 (F := Ideal) x0) rfl rfl).trans ?_
  rw [val_main_v29_apply, val_main_v4_apply]
  exact shift_read x0 b h w c (idx_main_v4 (idx_main_v29 (ix5 b h w 0 c))) 0 3 rfl (Nat.zero_add _).symm rfl rfl

theorem tap04 (x0 : Img) (b : Fin 4) (h w : Fin 512) (c : Fin 3) :
    val_main_v53 (F := Ideal) x0 (ix5 b h w (⟨4, by decide⟩ : Fin 25) c) = Cert.Conv.padded x0 b.val (h.val + 0) (w.val + 4) c.val := by
  refine (v53_fst x0 b h w c 4 (by decide)).trans ?_
  unfold val_main_v51
  refine (unit_piece (N := 16) _ _ b h w c 4 (by decide) rfl (val_main_v30 (F := Ideal) x0) rfl rfl).trans ?_
  rw [val_main_v30_apply, val_main_v5_apply]
  exact shift_read x0 b h w c (idx_main_v5 (idx_main_v30 (ix5 b h w 0 c))) 0 4 rfl (Nat.zero_add _).symm rfl rfl

theorem tap05 (x0 : Img) (b : Fin 4) (h w : Fin 512) (c : Fin 3) :
    val_main_v53 (F := Ideal) x0 (ix5 b h w (⟨5, by decide⟩ : Fin 25) c) = Cert.Conv.padded x0 b.val (h.val + 1) (w.val + 0) c.val := by
  refine (v53_fst x0 b h w c 5 (by decide)).trans ?_
  unfold val_main_v51
  refine (unit_piece (N := 16) _ _ b h w c 5 (by decide) rfl (val_main_v31 (F := Ideal) x0) rfl rfl).trans ?_
  rw [val_main_v31_apply, val_main_v6_apply]
  exact shift_read x0 b h w c (idx_main_v6 (idx_main_v31 (ix5 b h w 0 c))) 1 0 rfl rfl (Nat.zero_add _).symm rfl

theorem tap06 (x0 : Img) (b : Fin 4) (h w : Fin 512) (c : Fin 3) :
    val_main_v53 (F := Ideal) x0 (ix5 b h w (⟨6, by decide⟩ : Fin 25) c) = Cert.Conv.padded x0 b.val (h.val + 1) (w.val + 1) c.val := by
  refine (v53_fst x0 b h w c 6 (by decide)).trans ?_
  unfold val_main_v51
  refine (unit_piece (N := 16) _ _ b h w c 6 (by decide) rfl (val_main_v32 (F := Ideal) x0) rfl rfl).trans ?_
  rw [val_main_v32_apply, val_main_v7_apply]
  exact shift_read x0 b h w c (idx_main_v7 (idx_main_v32 (ix5 b h w 0 c))) 1 1 rfl rfl rfl rfl

theorem tap07 (x0 : Img) (b : Fin 4) (h w : Fin 512) (c : Fin 3) :
    val_main_v53 (F := Ideal) x0 (ix5 b h w (⟨7, by decide⟩ : Fin 25) c) = Cert.Conv.padded x0 b.val (h.val + 1) (w.val + 2) c.val := by
  refine (v53_fst x0 b h w c 7 (by decide)).trans ?_
  unfold val_main_v51
  refine (unit_piece (N := 16) _ _ b h w c 7 (by decide) rfl (val_main_v33 (F := Ideal) x0) rfl rfl).trans ?_
  rw [val_main_v33_apply, val_main_v8_apply]
  exact shift_read x0 b h w c (idx_main_v8 (idx_main_v33 (ix5 b h w 0 c))) 1 2 rfl rfl rfl rfl

theorem tap08 (x0 : Img) (b : Fin 4) (h w : Fin 512) (c : Fin 3) :
    val_main_v53 (F := Ideal) x0 (ix5 b h w (⟨8, by decide⟩ : Fin 25) c) = Cert.Conv.padded x0 b.val (h.val + 1) (w.val + 3) c.val := by
  refine (v53_fst x0 b h w c 8 (by decide)).trans ?_
  unfold val_main_v51
  refine (unit_piece (N := 16) _ _ b h w c 8 (by decide) rfl (val_main_v34 (F := Ideal) x0) rfl rfl).trans ?_
  rw [val_main_v34_apply, val_main_v9_apply]
  exact shift_read x0 b h w c (idx_main_v9 (idx_main_v34 (ix5 b h w 0 c))) 1 3 rfl rfl rfl rfl

theorem tap09 (x0 : Img) (b : Fin 4) (h w : Fin 512) (c : Fin 3) :
    val_main_v53 (F := Ideal) x0 (ix5 b h w (⟨9, by decide⟩ : Fin 25) c) = Cert.Conv.padded x0 b.val (h.val + 1) (w.val + 4) c.val := by
  refine (v53_fst x0 b h w c 9 (by decide)).trans ?_
  unfold val_main_v51
  refine (unit_piece (N := 16) _ _ b h w c 9 (by decide) rfl (val_main_v35 (F := Ideal) x0) rfl rfl).trans ?_
  rw [val_main_v35_apply, val_main_v10_apply]
  exact shift_read x0 b h w c (idx_main_v10 (idx_main_v35 (ix5 b h w 0 c))) 1 4 rfl rfl rfl rfl

theorem tap10 (x0 : Img) (b : Fin 4) (h w : Fin 512) (c : Fin 3) :
    val_main_v53 (F := Ideal) x0 (ix5 b h w (⟨10, by decide⟩ : Fin 25) c) = Cert.Conv.padded x0 b.val (h.val + 2) (w.val + 0) c.val := by
  refine (v53_fst x0 b h w c 10 (by decide)).trans ?_
  unfold val_main_v51
  refine (unit_piece (N := 16) _ _ b h w c 10 (by decide) rfl (val_main_v36 (F := Ideal) x0) rfl rfl).trans ?_
  rw [val_main_v36_apply, val_main_v11_apply]
  exact shift_read x0 b h w c (idx_main_v11 (idx_main_v36 (ix5 b h w 0 c))) 2 0 rfl rfl (Nat.zero_add _).symm rfl

theorem tap11 (x0 : Img) (b : Fin 4) (h w : Fin 512) (c : Fin 3) :
    val_main_v53 (F := Ideal) x0 (ix5 b h w (⟨11, by decide⟩ : Fin 25) c) = Cert.Conv.padded x0 b.val (h.val + 2) (w.val + 1) c.val := by
  refine (v53_fst x0 b h w c 11 (by decide)).trans ?_
  unfold val_main_v51
  refine (unit_piece (N := 16) _ _ b h w c 11 (by decide) rfl (val_main_v37 (F := Ideal) x0) rfl rfl).trans ?_
  rw [val_main_v37_apply, val_main_v12_apply]
  exact shift_read x0 b h w c (idx_main_v12 (idx_main_v37 (ix5 b h w 0 c))) 2 1 rfl rfl rfl rfl

theorem tap12 (x0 : Img) (b : Fin 4) (h w : Fin 512) (c : Fin 3) :
    val_main_v53 (F := Ideal) x0 (ix5 b h w (⟨12, by decide⟩ : Fin 25) c) = Cert.Conv.padded x0 b.val (h.val + 2) (w.val + 2) c.val := by
  refine (v53_fst x0 b h w c 12 (by decide)).trans ?_
  unfold val_main_v51
  refine (unit_piece (N := 16) _ _ b h w c 12 (by decide) rfl (val_main_v38 (F := Ideal) x0) rfl rfl).trans ?_
  rw [val_main_v38_apply, val_main_v13_apply]
  exact shift_read x0 b h w c (idx_main_v13 (idx_main_v38 (ix5 b h w 0 c))) 2 2 rfl rfl rfl rfl

theorem tap13 (x0 : Img) (b : Fin 4) (h w : Fin 512) (c : Fin 3) :
    val_main_v53 (F := Ideal) x0 (ix5 b h w (⟨13, by decide⟩ : Fin 25) c) = Cert.Conv.padded x0 b.val (h.val + 2) (w.val + 3) c.val := by
  refine (v53_fst x0 b h w c 13 (by decide)).trans ?_
  unfold val_main_v51
  refine (unit_piece (N := 16) _ _ b h w c 13 (by decide) rfl (val_main_v39 (F := Ideal) x0) rfl rfl).trans ?_
  rw [val_main_v39_apply, val_main_v14_apply]
  exact shift_read x0 b h w c (idx_main_v14 (idx_main_v39 (ix5 b h w 0 c))) 2 3 rfl rfl rfl rfl

theorem tap14 (x0 : Img) (b : Fin 4) (h w : Fin 512) (c : Fin 3) :
    val_main_v53 (F := Ideal) x0 (ix5 b h w (⟨14, by decide⟩ : Fin 25) c) = Cert.Conv.padded x0 b.val (h.val + 2) (w.val + 4) c.val := by
  refine (v53_fst x0 b h w c 14 (by decide)).trans ?_
  unfold val_main_v51
  refine (unit_piece (N := 16) _ _ b h w c 14 (by decide) rfl (val_main_v40 (F := Ideal) x0) rfl rfl).trans ?_
  rw [val_main_v40_apply, val_main_v15_apply]
  exact shift_read x0 b h w c (idx_main_v15 (idx_main_v40 (ix5 b h w 0 c))) 2 4 rfl rfl rfl rfl

theorem tap15 (x0 : Img) (b : Fin 4) (h w : Fin 512) (c : Fin 3) :
    val_main_v53 (F := Ideal) x0 (ix5 b h w (⟨15, by decide⟩ : Fin 25) c) = Cert.Conv.padded x0 b.val (h.val + 3) (w.val + 0) c.val := by
  refine (v53_fst x0 b h w c 15 (by decide)).trans ?_
  unfold val_main_v51
  refine (unit_piece (N := 16) _ _ b h w c 15 (by decide) rfl (val_main_v41 (F := Ideal) x0) rfl rfl).trans ?_
  rw [val_main_v41_apply, val_main_v16_apply]
  exact shift_read x0 b h w c (idx_main_v16 (idx_main_v41 (ix5 b h w 0 c))) 3 0 rfl rfl (Nat.zero_add _).symm rfl

theorem tap16 (x0 : Img) (b : Fin 4) (h w : Fin 512) (c : Fin 3) :
    val_main_v53 (F := Ideal) x0 (ix5 b h w (⟨16, by decide⟩ : Fin 25) c) = Cert.Conv.padded x0 b.val (h.val + 3) (w.val + 1) c.val := by
  refine (v53_snd x0 b h w c 16 0 (by decide) (by decide) rfl).trans ?_
  unfold val_main_v52
  refine (unit_piece (N := 9) _ _ b h w c 0 (by decide) rfl (val_main_v42 (F := Ideal) x0) rfl rfl).trans ?_
  rw [val_main_v42_apply, val_main_v17_apply]
  exact shift_read x0 b h w c (idx_main_v17 (idx_main_v42 (ix5 b h w 0 c))) 3 1 rfl rfl rfl rfl

theorem tap17 (x0 : Img) (b : Fin 4) (h w : Fin 512) (c : Fin 3) :
    val_main_v53 (F := Ideal) x0 (ix5 b h w (⟨17, by decide⟩ : Fin 25) c) = Cert.Conv.padded x0 b.val (h.val + 3) (w.val + 2) c.val := by
  refine (v53_snd x0 b h w c 17 1 (by decide) (by decide) rfl).trans ?_
  unfold val_main_v52
  refine (unit_piece (N := 9) _ _ b h w c 1 (by decide) rfl (val_main_v43 (F := Ideal) x0) rfl rfl).trans ?_
  rw [val_main_v43_apply, val_main_v18_apply]
  exact shift_read x0 b h w c (idx_main_v18 (idx_main_v43 (ix5 b h w 0 c))) 3 2 rfl rfl rfl rfl

theorem tap18 (x0 : Img) (b : Fin 4) (h w : Fin 512) (c : Fin 3) :
    val_main_v53 (F := Ideal) x0 (ix5 b h w (⟨18, by decide⟩ : Fin 25) c) = Cert.Conv.padded x0 b.val (h.val + 3) (w.val + 3) c.val := by
  refine (v53_snd x0 b h w c 18 2 (by decide) (by decide) rfl).trans ?_
  unfold val_main_v52
  refine (unit_piece (N := 9) _ _ b h w c 2 (by decide) rfl (val_main_v44 (F := Ideal) x0) rfl rfl).trans ?_
  rw [val_main_v44_apply, val_main_v19_apply]
  exact shift_read x0 b h w c (idx_main_v19 (idx_main_v44 (ix5 b h w 0 c))) 3 3 rfl rfl rfl rfl

theorem tap19 (x0 : Img) (b : Fin 4) (h w : Fin 512) (c : Fin 3) :
    val_main_v53 (F := Ideal) x0 (ix5 b h w (⟨19, by decide⟩ : Fin 25) c) = Cert.Conv.padded x0 b.val (h.val + 3) (w.val + 4) c.val := by
  refine (v53_snd x0 b h w c 19 3 (by decide) (by decide) rfl).trans ?_
  unfold val_main_v52
  refine (unit_piece (N := 9) _ _ b h w c 3 (by decide) rfl (val_main_v45 (F := Ideal) x0) rfl rfl).trans ?_
  rw [val_main_v45_apply, val_main_v20_apply]
  exact shift_read x0 b h w c (idx_main_v20 (idx_main_v45 (ix5 b h w 0 c))) 3 4 rfl rfl rfl rfl

theorem tap20 (x0 : Img) (b : Fin 4) (h w : Fin 512) (c : Fin 3) :
    val_main_v53 (F := Ideal) x0 (ix5 b h w (⟨20, by decide⟩ : Fin 25) c) = Cert.Conv.padded x0 b.val (h.val + 4) (w.val + 0) c.val := by
  refine (v53_snd x0 b h w c 20 4 (by decide) (by decide) rfl).trans ?_
  unfold val_main_v52
  refine (unit_piece (N := 9) _ _ b h w c 4 (by decide) rfl (val_main_v46 (F := Ideal) x0) rfl rfl).trans ?_
  rw [val_main_v46_apply, val_main_v21_apply]
  exact shift_read x0 b h w c (idx_main_v21 (idx_main_v46 (ix5 b h w 0 c))) 4 0 rfl rfl (Nat.zero_add _).symm rfl

theorem tap21 (x0 : Img) (b : Fin 4) (h w : Fin 512) (c : Fin 3) :
    val_main_v53 (F := Ideal) x0 (ix5 b h w (⟨21, by decide⟩ : Fin 25) c) = Cert.Conv.padded x0 b.val (h.val + 4) (w.val + 1) c.val := by
  refine (v53_snd x0 b h w c 21 5 (by decide) (by decide) rfl).trans ?_
  unfold val_main_v52
  refine (unit_piece (N := 9) _ _ b h w c 5 (by decide) rfl (val_main_v47 (F := Ideal) x0) rfl rfl).trans ?_
  rw [val_main_v47_apply, val_main_v22_apply]
  exact shift_read x0 b h w c (idx_main_v22 (idx_main_v47 (ix5 b h w 0 c))) 4 1 rfl rfl rfl rfl

theorem tap22 (x0 : Img) (b : Fin 4) (h w : Fin 512) (c : Fin 3) :
    val_main_v53 (F := Ideal) x0 (ix5 b h w (⟨22, by decide⟩ : Fin 25) c) = Cert.Conv.padded x0 b.val (h.val + 4) (w.val + 2) c.val := by
  refine (v53_snd x0 b h w c 22 6 (by decide) (by decide) rfl).trans ?_
  unfold val_main_v52
  refine (unit_piece (N := 9) _ _ b h w c 6 (by decide) rfl (val_main_v48 (F := Ideal) x0) rfl rfl).trans ?_
  rw [val_main_v48_apply, val_main_v23_apply]
  exact shift_read x0 b h w c (idx_main_v23 (idx_main_v48 (ix5 b h w 0 c))) 4 2 rfl rfl rfl rfl

theorem tap23 (x0 : Img) (b : Fin 4) (h w : Fin 512) (c : Fin 3) :
    val_main_v53 (F := Ideal) x0 (ix5 b h w (⟨23, by decide⟩ : Fin 25) c) = Cert.Conv.padded x0 b.val (h.val + 4) (w.val + 3) c.val := by
  refine (v53_snd x0 b h w c 23 7 (by decide) (by decide) rfl).trans ?_
  unfold val_main_v52
  refine (unit_piece (N := 9) _ _ b h w c 7 (by decide) rfl (val_main_v49 (F := Ideal) x0) rfl rfl).trans ?_
  rw [val_main_v49_apply, val_main_v24_apply]
  exact shift_read x0 b h w c (idx_main_v24 (idx_main_v49 (ix5 b h w 0 c))) 4 3 rfl rfl rfl rfl

theorem tap24 (x0 : Img) (b : Fin 4) (h w : Fin 512) (c : Fin 3) :
    val_main_v53 (F := Ideal) x0 (ix5 b h w (⟨24, by decide⟩ : Fin 25) c) = Cert.Conv.padded x0 b.val (h.val + 4) (w.val + 4) c.val := by
  refine (v53_snd x0 b h w c 24 8 (by decide) (by decide) rfl).trans ?_
  unfold val_main_v52
  refine (unit_piece (N := 9) _ _ b h w c 8 (by decide) rfl (val_main_v50 (F := Ideal) x0) rfl rfl).trans ?_
  rw [val_main_v50_apply, val_main_v25_apply]
  exact shift_read x0 b h w c (idx_main_v25 (idx_main_v50 (ix5 b h w 0 c))) 4 4 rfl rfl rfl rfl

/-- Tap `n` of the stack at pixel `(b, h, w)`, channel `c`, is the padded image `n / 5` rows down and `n % 5` columns
    right of the pixel. -/
theorem tap_read (x0 : (⟨S4x512x512x3, .f32⟩ : BufTy).Contents (Elt Ideal)) (b : Fin 4) (h w : Fin 512) (n : Nat)
    (hn : n < 25) (c : Fin 3) :
    val_main_v53 (F := Ideal) x0 (ix5 b h w ⟨n, hn⟩ c)
      = Cert.Conv.padded x0 b.val (h.val + n / 5) (w.val + n % 5) c.val :=
  match n, hn with
  | 0, _ => tap00 x0 b h w c
  | 1, _ => tap01 x0 b h w c
  | 2, _ => tap02 x0 b h w c
  | 3, _ => tap03 x0 b h w c
  | 4, _ => tap04 x0 b h w c
  | 5, _ => tap05 x0 b h w c
  | 6, _ => tap06 x0 b h w c
  | 7, _ => tap07 x0 b h w c
  | 8, _ => tap08 x0 b h w c
  | 9, _ => tap09 x0 b h w c
  | 10, _ => tap10 x0 b h w c
  | 11, _ => tap11 x0 b h w c
  | 12, _ => tap12 x0 b h w c
  | 13, _ => tap13 x0 b h w c
  | 14, _ => tap14 x0 b h w c
  | 15, _ => tap15 x0 b h w c
  | 16, _ => tap16 x0 b h w c
  | 17, _ => tap17 x0 b h w c
  | 18, _ => tap18 x0 b h w c
  | 19, _ => tap19 x0 b h w c
  | 20, _ => tap20 x0 b h w c
  | 21, _ => tap21 x0 b h w c
  | 22, _ => tap22 x0 b h w c
  | 23, _ => tap23 x0 b h w c
  | 24, _ => tap24 x0 b h w c
  | n + 25, hn => absurd hn (by omega)

/-! ## The sum over the window -/

/-- **The reference computes the specification's per-pixel filtered image.** -/
theorem ref_is_conv (x0 : (⟨S4x512x512x3, .f32⟩ : BufTy).Contents (Elt Ideal)) (x1 : (⟨S4x512x512x75, .f32⟩ : BufTy).Contents (Elt Ideal)) :
    Cert.ReferenceIdeal.Read.val_main_v56 (F := Ideal) x0 x1 = Cert.Conv.conv x0 x1 := by
  refine funext fun (j : S4x512x512.Idx) => ?_
  obtain ⟨b, h, w, rfl⟩ : ∃ (b : Fin 4) (h w : Fin 512), j = ix3 b h w := ⟨j 0, j 1, j 2, eq_ix3 j⟩
  have hb : b.val < 4 := b.isLt
  have hh : h.val < 512 := h.isLt
  have hw : w.val < 512 := w.isLt
  rw [val_main_v56_apply, val_main_cst_apply, Ideal.ofBits_def, Ideal.ofBits_zero_f32, zero_add]
  show _ = ∑ k : Fin 75, Cert.Conv.term x0 x1 b.val h.val w.val k.val
  refine Finset.sum_congr rfl fun k _ => ?_
  have hk : k.val < 75 := k.isLt
  -- entry `k` of the flattened (tap, channel) axis is tap `k / 3`, channel `k % 3`
  have hidx : idx_main_v54 (idx_main_v56 (ix3 b h w) k)
      = ix5 b h w (⟨k.val / 3, by omega⟩ : Fin 25) (⟨k.val % 3, by omega⟩ : Fin 3) := by
    funext a
    apply Fin.ext
    match a with
    | ⟨0, _⟩ => show (((b.val * 512 + h.val) * 512 + w.val) * 75 + k.val) / 19660800 = b.val; omega
    | ⟨1, _⟩ => show (((b.val * 512 + h.val) * 512 + w.val) * 75 + k.val) / 38400 % 512 = h.val; omega
    | ⟨2, _⟩ => show (((b.val * 512 + h.val) * 512 + w.val) * 75 + k.val) / 75 % 512 = w.val; omega
    | ⟨3, _⟩ => show (((b.val * 512 + h.val) * 512 + w.val) * 75 + k.val) / 3 % 25 = k.val / 3; omega
    | ⟨4, _⟩ => show (((b.val * 512 + h.val) * 512 + w.val) * 75 + k.val) % 3 = k.val % 3; omega
  -- the filter entry
  have hfilt : x1 (idx_main_v56 (ix3 b h w) k) = Cert.Conv.at4 x1 b.val h.val w.val k.val := by
    rw [Cert.Conv.at4_ix x1 b h w k]
    exact congrArg x1 (funext fun a => match a with | ⟨0, _⟩ => rfl | ⟨1, _⟩ => rfl | ⟨2, _⟩ => rfl | ⟨3, _⟩ => rfl)
  rw [val_main_v55_apply, val_main_v54_apply, hidx, tap_read, hfilt, Ideal.mulf_def]
  rfl

end Cert.ReferenceIdeal.RefValue

end
-- ==== Proof.lean ====
/-
  The kernel and the reference compute one function of the two arguments.

  Both programs take an image `img : [4, 512, 512, 3]` and per-pixel filters `filt : [4, 512, 512, 75]` and return, at pixel
  `(b, h, w)`, the sum over `k < 75` of `P(b, h + k / 15, w + k / 3 % 5, k % 3) · filt(b, h, w, k)`, where `P` is the image with
  two rows and columns of zeros on every side of each plane (`Cert.Conv.conv`, Proof/ConvSpec.lean).

  The reference pads the image, takes the 25 shifted 512 × 512 views, stacks them on a new axis, flattens that axis with the
  channels into 75, multiplies by the filters and sums over the 75 (Proof/RefConv.lean reads that chain at an index).
  The kernel moves channels and taps in front of the rows (two host transposes and a pad: Proof/KernelHost.lean), and on a
  4 × 8 grid accumulates from zero, for each tile of 64 output rows, the 75 products of a shifted image window with a filter
  plane, in the order of `k` (Proof/KernelBody.lean); its 32 blocks tile the result (Proof/KernelValue.lean). The two sums have
  the same 75 terms in the same order, so no law of the extended reals beyond rewriting the indices is needed, and the
  precondition (finite inputs) is not used.

  No operation was rewritten by the idealization, so `preserves` has nothing to state; the three frames are the generated
  frame runs and the reference's run with the result dropped.
-/
import proofs.«404483_j77644418777227_3_alg».proof.Defs
import proofs.«404483_j77644418777227_3_alg».proof.Proof.Gen.Kernel
import proofs.«404483_j77644418777227_3_alg».proof.Proof.Gen.Kernel.Skeleton
import proofs.«404483_j77644418777227_3_alg».proof.Proof.Gen.Kernel.Launch
import proofs.«404483_j77644418777227_3_alg».proof.Proof.Gen.Kernel.Points
import proofs.«404483_j77644418777227_3_alg».proof.Proof.Gen.Kernel.Frame
import proofs.«404483_j77644418777227_3_alg».proof.Proof.Gen.KernelIdeal
import proofs.«404483_j77644418777227_3_alg».proof.Proof.Gen.KernelIdeal.Skeleton
import proofs.«404483_j77644418777227_3_alg».proof.Proof.Gen.KernelIdeal.Launch
import proofs.«404483_j77644418777227_3_alg».proof.Proof.Gen.KernelIdeal.Points
import proofs.«404483_j77644418777227_3_alg».proof.Proof.Gen.KernelIdeal.Frame
import proofs.«404483_j77644418777227_3_alg».proof.Proof.Gen.KernelIdeal.Value
import proofs.«404483_j77644418777227_3_alg».proof.Proof.Gen.ReferenceIdeal
import proofs.«404483_j77644418777227_3_alg».proof.Proof.Gen.Pre_finite_inputs
import proofs.«404483_j77644418777227_3_alg».proof.Proof.KernelValue
import proofs.«404483_j77644418777227_3_alg».proof.Proof.RefRun
import proofs.«404483_j77644418777227_3_alg».proof.Proof.RefRead
import proofs.«404483_j77644418777227_3_alg».proof.Proof.RefConv
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame run. -/
theorem frame_kernel : Cert.frame_Kernel :=
  fun m ρ _ => Cert.Kernel.Gen.frame m ρ

/-- The idealized kernel runs and keeps its arguments: its generated frame run. -/
theorem frame_kernelIdeal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the arguments both programs end with the result at `Cert.Conv.conv` of the arguments: the
    kernel by its blocks, the reference by its chain of host operations read at an index. -/
theorem algebraic : Cert.algebraic_KernelIdeal_ReferenceIdeal := by
  intro m ρ m' ρ' _ hagree
  refine ⟨fun c => Cert.Conv.conv (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ConvValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.ref_is_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
